-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x37 : Shape := ⟨2, ![100000, 37]⟩
abbrev S100000x5 : Shape := ⟨2, ![100000, 5]⟩
abbrev S1000000x64 : Shape := ⟨2, ![1000000, 64]⟩
abbrev S64x106 : Shape := ⟨2, ![64, 106]⟩
abbrev S64 : Shape := ⟨1, ![64]⟩
abbrev S64x64 : Shape := ⟨2, ![64, 64]⟩
abbrev S2x2000000 : Shape := ⟨2, ![2, 2000000]⟩
abbrev S_ : Shape := ⟨0, ![]⟩

class Facts : Prop where
  bcast_S_S100000x37 : S_.BroadcastsInDim S100000x37 (![] : Fin 0 → Fin S100000x37.rank)
  reducesTo_S100000x37_S_d0_1 : S100000x37.ReducesTo [0, 1] S_
  h_S_ : 0 < S_.numel
  bcast_S_S100000x5 : S_.BroadcastsInDim S100000x5 (![] : Fin 0 → Fin S100000x5.rank)
  reducesTo_S100000x5_S_d0_1 : S100000x5.ReducesTo [0, 1] S_
  bcast_S_S1000000x64 : S_.BroadcastsInDim S1000000x64 (![] : Fin 0 → Fin S1000000x64.rank)
  reducesTo_S1000000x64_S_d0_1 : S1000000x64.ReducesTo [0, 1] S_
  bcast_S_S64x106 : S_.BroadcastsInDim S64x106 (![] : Fin 0 → Fin S64x106.rank)
  reducesTo_S64x106_S_d0_1 : S64x106.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x106 1) : IVec S_ 1 :=
  let main_c_5 : IVec S_ 1 := constantI S_ 1 1#1
  let main_v17 : IVec S_ 1 := (fun x v => Host.reduce IntOp.andi x v reducesTo_S64x106_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x37 .f32) (main_arg1 : FVec F S100000x5 .f32) (main_arg2 : FVec F S1000000x64 .f32) (main_arg3 : FVec F S64x106 .f32) (main_arg4 : FVec F S64 .f32) (main_arg5 : FVec F S64x64 .f32) (main_arg6 : FVec F S64 .f32) (main_arg7 : IVec S2x2000000 32) (main_arg8 : IVec S2x2000000 32) : IVec S_ 1 :=
  let main_v0 : FVec F S100000x37 .f32 := Host.absf main_arg0
  let main_cst : FVec F S_ .f32 := constant S_ .f32 0x7F800000#32
  let main_v1 : FVec F S100000x37 .f32 := broadcastInDim S100000x37 ![] bcast_S_S100000x37 main_cst
  let main_v2 : IVec S100000x37 1 := cmpf .olt main_v0 main_v1
  let main_c : IVec S_ 1 := constantI S_ 1 1#1
  let main_v3 : IVec S_ 1 := (fun x v => Host.reduce IntOp.andi x v reducesTo_S100000x37_S_d0_1 h_S_) main_v2 main_c
  let main_v4 : FVec F S100000x5 .f32 := Host.absf main_arg1
  let main_cst_0 : FVec F S_ .f32 := constant S_ .f32 0x7F800000#32
  let main_v5 : FVec F S100000x5 .f32 := broadcastInDim S100000x5 ![] bcast_S_S100000x5 main_cst_0
  let main_v6 : IVec S100000x5 1 := cmpf .olt main_v4 main_v5
  let main_c_1 : IVec S_ 1 := constantI S_ 1 1#1
  let main_v7 : IVec S_ 1 := (fun x v => Host.reduce IntOp.andi x v reducesTo_S100000x5_S_d0_1 h_S_) main_v6 main_c_1
  let main_v8 : IVec S_ 1 := andi main_v3 main_v7
  let main_v9 : FVec F S1000000x64 .f32 := Host.absf main_arg2
  let main_cst_2 : FVec F S_ .f32 := constant S_ .f32 0x7F800000#32
  let main_v10 : FVec F S1000000x64 .f32 := broadcastInDim S1000000x64 ![] bcast_S_S1000000x64 main_cst_2
  let main_v11 : IVec S1000000x64 1 := cmpf .olt main_v9 main_v10
  let main_c_3 : IVec S_ 1 := constantI S_ 1 1#1
  let main_v12 : IVec S_ 1 := (fun x v => Host.reduce IntOp.andi x v reducesTo_S1000000x64_S_d0_1 h_S_) main_v11 main_c_3
  let main_v13 : IVec S_ 1 := andi main_v8 main_v12
  let main_v14 : FVec F S64x106 .f32 := Host.absf main_arg3
  let main_cst_4 : FVec F S_ .f32 := constant S_ .f32 0x7F800000#32
  let main_v15 : FVec F S64x106 .f32 := broadcastInDim S64x106 ![] bcast_S_S64x106 main_cst_4
  let main_v16 : IVec S64x106 1 := cmpf .olt main_v14 main_v15
  fn_part1 (F := F) main_arg4 main_arg5 main_arg6 main_v13 main_v16
-- ==== Kernel.lean ====
abbrev S100000x37 : Shape := ⟨2, ![100000, 37]⟩
abbrev S100000x5 : Shape := ⟨2, ![100000, 5]⟩
abbrev S1000000x64 : Shape := ⟨2, ![1000000, 64]⟩
abbrev S64x106 : Shape := ⟨2, ![64, 106]⟩
abbrev S64 : Shape := ⟨1, ![64]⟩
abbrev S64x64 : Shape := ⟨2, ![64, 64]⟩
abbrev S2x2000000 : Shape := ⟨2, ![2, 2000000]⟩
abbrev S100000x42 : Shape := ⟨2, ![100000, 42]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x64 : Shape := ⟨2, ![2000000, 64]⟩
abbrev S2000000x42 : Shape := ⟨2, ![2000000, 42]⟩
abbrev S2000000x106 : Shape := ⟨2, ![2000000, 106]⟩
abbrev S106x64 : Shape := ⟨2, ![106, 64]⟩
abbrev S1x64 : Shape := ⟨2, ![1, 64]⟩
abbrev S10000x106 : Shape := ⟨2, ![10000, 106]⟩
abbrev S10000x64 : Shape := ⟨2, ![10000, 64]⟩

abbrev nBuf : Space → Nat
  | .hbm => 45
  | .vmem => 14
  | .smem => 0
  | _ => 0

abbrev bufTy : (tb : Table) → Fin (tcTables nBuf tb) → BufTy
  | .hbm, ⟨0, _⟩ => ⟨S100000x37, .f32⟩
  | .hbm, ⟨1, _⟩ => ⟨S100000x5, .f32⟩
  | .hbm, ⟨2, _⟩ => ⟨S1000000x64, .f32⟩
  | .hbm, ⟨3, _⟩ => ⟨S64x106, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x2000000, .i32⟩
  | .hbm, ⟨8, _⟩ => ⟨S2x2000000, .i32⟩
  | .hbm, ⟨9, _⟩ => ⟨S100000x42, .f32⟩
  | .hbm, ⟨10, _⟩ => ⟨S1x2000000, .i32⟩
  | .hbm, ⟨11, _⟩ => ⟨S2000000, .i32⟩
  | .hbm, ⟨12, _⟩ => ⟨S_, .i32⟩
  | .hbm, ⟨13, _⟩ => ⟨S2000000, .i32⟩
  | .hbm, ⟨14, _⟩ => ⟨S2000000, .i1⟩
  | .hbm, ⟨15, _⟩ => ⟨S_, .i32⟩
  | .hbm, ⟨16, _⟩ => ⟨S2000000, .i32⟩
  | .hbm, ⟨17, _⟩ => ⟨S2000000, .i32⟩
  | .hbm, ⟨18, _⟩ => ⟨S2000000, .i32⟩
  | .hbm, ⟨19, _⟩ => ⟨S2000000x1, .i32⟩
  | .hbm, ⟨20, _⟩ => ⟨S2000000x64, .f32⟩
  | .hbm, ⟨21, _⟩ => ⟨S1x2000000, .i32⟩
  | .hbm, ⟨22, _⟩ => ⟨S2000000, .i32⟩
  | .hbm, ⟨23, _⟩ => ⟨S_, .i32⟩
  | .hbm, ⟨24, _⟩ => ⟨S2000000, .i32⟩
  | .hbm, ⟨25, _⟩ => ⟨S2000000, .i1⟩
  | .hbm, ⟨26, _⟩ => ⟨S_, .i32⟩
  | .hbm, ⟨27, _⟩ => ⟨S2000000, .i32⟩
  | .hbm, ⟨28, _⟩ => ⟨S2000000, .i32⟩
  | .hbm, ⟨29, _⟩ => ⟨S2000000, .i32⟩
  | .hbm, ⟨30, _⟩ => ⟨S2000000x1, .i32⟩
  | .hbm, ⟨31, _⟩ => ⟨S2000000x42, .f32⟩
  | .hbm, ⟨32, _⟩ => ⟨S2000000x106, .f32⟩
  | .hbm, ⟨33, _⟩ => ⟨S106x64, .f32⟩
  | .hbm, ⟨34, _⟩ => ⟨S1x64, .f32⟩
  | .hbm, ⟨35, _⟩ => ⟨S2000000x64, .f32⟩
  | .hbm, ⟨36, _⟩ => ⟨S1x2000000, .i32⟩
  | .hbm, ⟨37, _⟩ => ⟨S2000000, .i32⟩
  | .hbm, ⟨38, _⟩ => ⟨S_, .f32⟩
  | .hbm, ⟨39, _⟩ => ⟨S1000000x64, .f32⟩
  | .hbm, ⟨40, _⟩ => ⟨S2000000x1, .i32⟩
  | .hbm, ⟨41, _⟩ => ⟨S1000000x64, .f32⟩
  | .hbm, ⟨42, _⟩ => ⟨S64x64, .f32⟩
  | .hbm, ⟨43, _⟩ => ⟨S1x64, .f32⟩
  | .hbm, ⟨44, _⟩ => ⟨S1000000x64, .f32⟩
  | .local _ .vmem, ⟨0, _⟩ => ⟨S10000x106, .f32⟩
  | .local _ .vmem, ⟨1, _⟩ => ⟨S10000x106, .f32⟩
  | .local _ .vmem, ⟨2, _⟩ => ⟨S106x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | _, _ => ⟨S100000x37, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x106 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S106x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  concatenates_S100000x37_S100000x5_S100000x42_d1 : Shape.Concatenates [S100000x37, S100000x5] S100000x42 1
  slices_S2x2000000_S1x2000000_1_0 : S2x2000000.Slices ![1, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_0_0 : S2x2000000.Slices ![0, 0] S1x2000000
  concatenates_S2000000x64_S2000000x42_S2000000x106_d1 : Shape.Concatenates [S2000000x64, S2000000x42] S2000000x106 1
  transposes_S64x106_S106x64_1_0 : S64x106.Transposes [1, 0] S106x64
  shapeCasts_S64_S1x64 : S64.ShapeCasts S1x64
  inb_S10000x106_S10000x106_0_0 : ∀ a, (![0, 0] : Fin 2 → Nat) a + S10000x106.size a ≤ S10000x106.size a
  h_S10000x106 : 0 < S10000x106.numel
  shapeCasts_S10000x106_S10000x106 : S10000x106.ShapeCasts S10000x106
  bitsLt_bf16_f32 : FTy.bits .bf16 < FTy.bits .f32
  inb_S106x64_S106x64_0_0 : ∀ a, (![0, 0] : Fin 2 → Nat) a + S106x64.size a ≤ S106x64.size a
  h_S106x64 : 0 < S106x64.numel
  shapeCasts_S106x64_S106x64 : S106x64.ShapeCasts S106x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S1000000x64 : S_.BroadcastsInDim S1000000x64 (![] : Fin 0 → Fin S1000000x64.rank)
  transposes_S64x64_S64x64_1_0 : S64x64.Transposes [1, 0] S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S10000x64_S10000x64 : S10000x64.ShapeCasts S10000x64
  gather_S1000000x64_S2000000x1_S2000000x64_1_0_n_n_0_1_164_wf : GatherDims.WF S1000000x64 S2000000x1 S2000000x64 [1] [0] [] [0] [] 1 ![1, 64]
  gather_S100000x42_S2000000x1_S2000000x42_1_0_n_n_0_1_142_wf : GatherDims.WF S100000x42 S2000000x1 S2000000x42 [1] [0] [] [0] [] 1 ![1, 42]
  dot_S10000x106_S106x64_S10000x64_1_0_0_1_n_n_wf : DotDims.WF S10000x106 S106x64 S10000x64 [1] [0] [0] [1] [] []
  scatter_S1000000x64_S2000000x1_S2000000x64_1_0_0_1_wf : ScatterDims.WF S1000000x64 S2000000x1 S2000000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x106.size a ≤ S2000000x106.size a
  hwx0_0 : ∀ i : grid0.Coords, EltTy.bits .f32 = 32 ∨ (Rect.block (s := S2000000x106) S10000x106.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S106x64.size a ≤ S106x64.size a
  hwx0_1 : ∀ i : grid0.Coords, EltTy.bits .f32 = 32 ∨ (Rect.block (s := S106x64) S106x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S2000000x64.size a
  hwx0_3 : ∀ i : grid0.Coords, EltTy.bits .f32 = 32 ∨ (Rect.block (s := S2000000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1000000x64.size a
  hwx1_0 : ∀ i : grid1.Coords, EltTy.bits .f32 = 32 ∨ (Rect.block (s := S1000000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S1000000x64.size a
  hwx1_1 : ∀ i : grid1.Coords, EltTy.bits .f32 = 32 ∨ (Rect.block (s := S1000000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S1000000x64.size a
  hwx1_4 : ∀ i : grid1.Coords, EltTy.bits .f32 = 32 ∨ (Rect.block (s := S1000000x64) S10000x64.size (cc1_transform_4 i) (hinb1_4 i)).WholeWords (EltTy.packing .f32)

variable [Facts₀]

def gather_S1000000x64_S2000000x1_S2000000x64_1_0_n_n_0_1_164 : GatherDims S1000000x64 S2000000x1 S2000000x64 where
  offsetDims := [1]
  collapsedSliceDims := [0]
  operandBatchingDims := []
  startIndicesBatchingDims := []
  startIndexMap := [0]
  indexVectorDim := 1
  sliceSizes := ![1, 64]
  wf := gather_S1000000x64_S2000000x1_S2000000x64_1_0_n_n_0_1_164_wf
def gather_S100000x42_S2000000x1_S2000000x42_1_0_n_n_0_1_142 : GatherDims S100000x42 S2000000x1 S2000000x42 where
  offsetDims := [1]
  collapsedSliceDims := [0]
  operandBatchingDims := []
  startIndicesBatchingDims := []
  startIndexMap := [0]
  indexVectorDim := 1
  sliceSizes := ![1, 42]
  wf := gather_S100000x42_S2000000x1_S2000000x42_1_0_n_n_0_1_142_wf
def dot_S10000x106_S106x64_S10000x64_1_0_0_1_n_n : DotDims S10000x106 S106x64 S10000x64 where
  lhsContracting := [1]
  rhsContracting := [0]
  lhsNonContracting := [0]
  rhsNonContracting := [1]
  lhsBatch := []
  rhsBatch := []
  wf := dot_S10000x106_S106x64_S10000x64_1_0_0_1_n_n_wf
def scatter_S1000000x64_S2000000x1_S2000000x64_1_0_0_1 : ScatterDims S1000000x64 S2000000x1 S2000000x64 where
  updateWindowDims := [1]
  insertedWindowDims := [0]
  scatterDimsToOperandDims := [0]
  indexVectorDim := 1
  wf := scatter_S1000000x64_S2000000x1_S2000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v19) S10000x106.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S106x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x37 : Shape := ⟨2, ![100000, 37]⟩
abbrev S100000x5 : Shape := ⟨2, ![100000, 5]⟩
abbrev S1000000x64 : Shape := ⟨2, ![1000000, 64]⟩
abbrev S64x106 : Shape := ⟨2, ![64, 106]⟩
abbrev S64 : Shape := ⟨1, ![64]⟩
abbrev S64x64 : Shape := ⟨2, ![64, 64]⟩
abbrev S2x2000000 : Shape := ⟨2, ![2, 2000000]⟩
abbrev S100000x42 : Shape := ⟨2, ![100000, 42]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x64 : Shape := ⟨2, ![2000000, 64]⟩
abbrev S2000000x42 : Shape := ⟨2, ![2000000, 42]⟩
abbrev S2000000x106 : Shape := ⟨2, ![2000000, 106]⟩
abbrev S106x64 : Shape := ⟨2, ![106, 64]⟩
abbrev S1x64 : Shape := ⟨2, ![1, 64]⟩

abbrev nBuf : Space → Nat
  | .hbm => 80
  | .vmem => 0
  | .smem => 0
  | _ => 0

abbrev bufTy : (tb : Table) → Fin (tcTables nBuf tb) → BufTy
  | .hbm, ⟨0, _⟩ => ⟨S100000x37, .f32⟩
  | .hbm, ⟨1, _⟩ => ⟨S100000x5, .f32⟩
  | .hbm, ⟨2, _⟩ => ⟨S1000000x64, .f32⟩
  | .hbm, ⟨3, _⟩ => ⟨S64x106, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x2000000, .i32⟩
  | .hbm, ⟨8, _⟩ => ⟨S2x2000000, .i32⟩
  | .hbm, ⟨9, _⟩ => ⟨S100000x42, .f32⟩
  | .hbm, ⟨10, _⟩ => ⟨S1x2000000, .i32⟩
  | .hbm, ⟨11, _⟩ => ⟨S2000000, .i32⟩
  | .hbm, ⟨12, _⟩ => ⟨S_, .i32⟩
  | .hbm, ⟨13, _⟩ => ⟨S2000000, .i32⟩
  | .hbm, ⟨14, _⟩ => ⟨S2000000, .i1⟩
  | .hbm, ⟨15, _⟩ => ⟨S_, .i32⟩
  | .hbm, ⟨16, _⟩ => ⟨S2000000, .i32⟩
  | .hbm, ⟨17, _⟩ => ⟨S2000000, .i32⟩
  | .hbm, ⟨18, _⟩ => ⟨S2000000, .i32⟩
  | .hbm, ⟨19, _⟩ => ⟨S2000000x1, .i32⟩
  | .hbm, ⟨20, _⟩ => ⟨S2000000x64, .f32⟩
  | .hbm, ⟨21, _⟩ => ⟨S1x2000000, .i32⟩
  | .hbm, ⟨22, _⟩ => ⟨S2000000, .i32⟩
  | .hbm, ⟨23, _⟩ => ⟨S_, .i32⟩
  | .hbm, ⟨24, _⟩ => ⟨S2000000, .i32⟩
  | .hbm, ⟨25, _⟩ => ⟨S2000000, .i1⟩
  | .hbm, ⟨26, _⟩ => ⟨S_, .i32⟩
  | .hbm, ⟨27, _⟩ => ⟨S2000000, .i32⟩
  | .hbm, ⟨28, _⟩ => ⟨S2000000, .i32⟩
  | .hbm, ⟨29, _⟩ => ⟨S2000000, .i32⟩
  | .hbm, ⟨30, _⟩ => ⟨S2000000x1, .i32⟩
  | .hbm, ⟨31, _⟩ => ⟨S2000000x42, .f32⟩
  | .hbm, ⟨32, _⟩ => ⟨S2000000x106, .f32⟩
  | .hbm, ⟨33, _⟩ => ⟨S106x64, .f32⟩
  | .hbm, ⟨34, _⟩ => ⟨S2000000x64, .f32⟩
  | .hbm, ⟨35, _⟩ => ⟨S1x64, .f32⟩
  | .hbm, ⟨36, _⟩ => ⟨S2000000x64, .f32⟩
  | .hbm, ⟨37, _⟩ => ⟨S2000000x64, .f32⟩
  | .hbm, ⟨38, _⟩ => ⟨S_, .f32⟩
  | .hbm, ⟨39, _⟩ => ⟨S2000000x64, .f32⟩
  | .hbm, ⟨40, _⟩ => ⟨S2000000x64, .i1⟩
  | .hbm, ⟨41, _⟩ => ⟨S_, .f32⟩
  | .hbm, ⟨42, _⟩ => ⟨S2000000x64, .f32⟩
  | .hbm, ⟨43, _⟩ => ⟨S2000000x64, .i1⟩
  | .hbm, ⟨44, _⟩ => ⟨S_, .f32⟩
  | .hbm, ⟨45, _⟩ => ⟨S_, .f32⟩
  | .hbm, ⟨46, _⟩ => ⟨S2000000x64, .f32⟩
  | .hbm, ⟨47, _⟩ => ⟨S2000000x64, .f32⟩
  | .hbm, ⟨48, _⟩ => ⟨S2000000x64, .f32⟩
  | .hbm, ⟨49, _⟩ => ⟨S_, .f32⟩
  | .hbm, ⟨50, _⟩ => ⟨S2000000x64, .f32⟩
  | .hbm, ⟨51, _⟩ => ⟨S2000000x64, .f32⟩
  | .hbm, ⟨52, _⟩ => ⟨S2000000x64, .f32⟩
  | .hbm, ⟨53, _⟩ => ⟨S1x2000000, .i32⟩
  | .hbm, ⟨54, _⟩ => ⟨S2000000, .i32⟩
  | .hbm, ⟨55, _⟩ => ⟨S_, .f32⟩
  | .hbm, ⟨56, _⟩ => ⟨S1000000x64, .f32⟩
  | .hbm, ⟨57, _⟩ => ⟨S2000000x1, .i32⟩
  | .hbm, ⟨58, _⟩ => ⟨S1000000x64, .f32⟩
  | .hbm, ⟨59, _⟩ => ⟨S64x64, .f32⟩
  | .hbm, ⟨60, _⟩ => ⟨S1000000x64, .f32⟩
  | .hbm, ⟨61, _⟩ => ⟨S1x64, .f32⟩
  | .hbm, ⟨62, _⟩ => ⟨S1000000x64, .f32⟩
  | .hbm, ⟨63, _⟩ => ⟨S1000000x64, .f32⟩
  | .hbm, ⟨64, _⟩ => ⟨S_, .f32⟩
  | .hbm, ⟨65, _⟩ => ⟨S1000000x64, .f32⟩
  | .hbm, ⟨66, _⟩ => ⟨S1000000x64, .i1⟩
  | .hbm, ⟨67, _⟩ => ⟨S_, .f32⟩
  | .hbm, ⟨68, _⟩ => ⟨S1000000x64, .f32⟩
  | .hbm, ⟨69, _⟩ => ⟨S1000000x64, .i1⟩
  | .hbm, ⟨70, _⟩ => ⟨S_, .f32⟩
  | .hbm, ⟨71, _⟩ => ⟨S_, .f32⟩
  | .hbm, ⟨72, _⟩ => ⟨S1000000x64, .f32⟩
  | .hbm, ⟨73, _⟩ => ⟨S1000000x64, .f32⟩
  | .hbm, ⟨74, _⟩ => ⟨S1000000x64, .f32⟩
  | .hbm, ⟨75, _⟩ => ⟨S_, .f32⟩
  | .hbm, ⟨76, _⟩ => ⟨S1000000x64, .f32⟩
  | .hbm, ⟨77, _⟩ => ⟨S1000000x64, .f32⟩
  | .hbm, ⟨78, _⟩ => ⟨S1000000x64, .f32⟩
  | .hbm, ⟨79, _⟩ => ⟨S1000000x64, .f32⟩
  | _, _ => ⟨S100000x37, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_cst_1 : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_v4 : Ref sig .tc := ⟨.hbm, 47, rfl⟩
abbrev main_call0_v5 : Ref sig .tc := ⟨.hbm, 48, rfl⟩
abbrev main_call0_cst_2 : Ref sig .tc := ⟨.hbm, 49, rfl⟩
abbrev main_call0_v6 : Ref sig .tc := ⟨.hbm, 50, rfl⟩
abbrev main_call0_v7 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_cst_0 : Ref sig .tc := ⟨.hbm, 67, rfl⟩
abbrev main_call1_v2 : Ref sig .tc := ⟨.hbm, 68, rfl⟩
abbrev main_call1_v3 : Ref sig .tc := ⟨.hbm, 69, rfl⟩
abbrev main_call1_cst_1 : Ref sig .tc := ⟨.hbm, 70, rfl⟩
abbrev main_call1_call0_v0 : Ref sig .tc := ⟨.hbm, 71, rfl⟩
abbrev main_call1_call0_v1 : Ref sig .tc := ⟨.hbm, 72, rfl⟩
abbrev main_call1_v4 : Ref sig .tc := ⟨.hbm, 73, rfl⟩
abbrev main_call1_v5 : Ref sig .tc := ⟨.hbm, 74, rfl⟩
abbrev main_call1_cst_2 : Ref sig .tc := ⟨.hbm, 75, rfl⟩
abbrev main_call1_v6 : Ref sig .tc := ⟨.hbm, 76, rfl⟩
abbrev main_call1_v7 : Ref sig .tc := ⟨.hbm, 77, rfl⟩
abbrev main_v36 : Ref sig .tc := ⟨.hbm, 78, rfl⟩
abbrev main_v37 : Ref sig .tc := ⟨.hbm, 79, rfl⟩

abbrev nD : Nat := 1
abbrev τ : Topo := Topo.v7x

variable {F : FTy → Type} [FloatOps F]

class Facts₀ : Prop where
  concatenates_S100000x37_S100000x5_S100000x42_d1 : Shape.Concatenates [S100000x37, S100000x5] S100000x42 1
  slices_S2x2000000_S1x2000000_1_0 : S2x2000000.Slices ![1, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_0_0 : S2x2000000.Slices ![0, 0] S1x2000000
  concatenates_S2000000x64_S2000000x42_S2000000x106_d1 : Shape.Concatenates [S2000000x64, S2000000x42] S2000000x106 1
  transposes_S64x106_S106x64_1_0 : S64x106.Transposes [1, 0] S106x64
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S_S1000000x64 : S_.BroadcastsInDim S1000000x64 (![] : Fin 0 → Fin S1000000x64.rank)
  transposes_S64x64_S64x64_1_0 : S64x64.Transposes [1, 0] S64x64
  bcast_S1x64_S1000000x64_0_1 : S1x64.BroadcastsInDim S1000000x64 (![0, 1] : Fin 2 → Fin S1000000x64.rank)
  gather_S1000000x64_S2000000x1_S2000000x64_1_0_n_n_0_1_164_wf : GatherDims.WF S1000000x64 S2000000x1 S2000000x64 [1] [0] [] [0] [] 1 ![1, 64]
  gather_S100000x42_S2000000x1_S2000000x42_1_0_n_n_0_1_142_wf : GatherDims.WF S100000x42 S2000000x1 S2000000x42 [1] [0] [] [0] [] 1 ![1, 42]
  dot_S2000000x106_S106x64_S2000000x64_1_0_0_1_n_n_wf : DotDims.WF S2000000x106 S106x64 S2000000x64 [1] [0] [0] [1] [] []
  scatter_S1000000x64_S2000000x1_S2000000x64_1_0_0_1_wf : ScatterDims.WF S1000000x64 S2000000x1 S2000000x64 [1] [0] [0] 1
  dot_S1000000x64_S64x64_S1000000x64_1_0_0_1_n_n_wf : DotDims.WF S1000000x64 S64x64 S1000000x64 [1] [0] [0] [1] [] []

variable [Facts₀]

def gather_S1000000x64_S2000000x1_S2000000x64_1_0_n_n_0_1_164 : GatherDims S1000000x64 S2000000x1 S2000000x64 where
  offsetDims := [1]
  collapsedSliceDims := [0]
  operandBatchingDims := []
  startIndicesBatchingDims := []
  startIndexMap := [0]
  indexVectorDim := 1
  sliceSizes := ![1, 64]
  wf := gather_S1000000x64_S2000000x1_S2000000x64_1_0_n_n_0_1_164_wf
def gather_S100000x42_S2000000x1_S2000000x42_1_0_n_n_0_1_142 : GatherDims S100000x42 S2000000x1 S2000000x42 where
  offsetDims := [1]
  collapsedSliceDims := [0]
  operandBatchingDims := []
  startIndicesBatchingDims := []
  startIndexMap := [0]
  indexVectorDim := 1
  sliceSizes := ![1, 42]
  wf := gather_S100000x42_S2000000x1_S2000000x42_1_0_n_n_0_1_142_wf
def dot_S2000000x106_S106x64_S2000000x64_1_0_0_1_n_n : DotDims S2000000x106 S106x64 S2000000x64 where
  lhsContracting := [1]
  rhsContracting := [0]
  lhsNonContracting := [0]
  rhsNonContracting := [1]
  lhsBatch := []
  rhsBatch := []
  wf := dot_S2000000x106_S106x64_S2000000x64_1_0_0_1_n_n_wf
def scatter_S1000000x64_S2000000x1_S2000000x64_1_0_0_1 : ScatterDims S1000000x64 S2000000x1 S2000000x64 where
  updateWindowDims := [1]
  insertedWindowDims := [0]
  scatterDimsToOperandDims := [0]
  indexVectorDim := 1
  wf := scatter_S1000000x64_S2000000x1_S2000000x64_1_0_0_1_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf

class Facts : Prop extends Facts₀ where

variable [Facts]
-- ==== Proof.Spec.lean ====
/-
  What the program computes, as functions of its nine argument arrays.

  Nodes carry a feature row `x ‖ global_state` (42 numbers), edges a row `edge_attr` (64 numbers). For each of the
  2,000,000 (edge, edge) pairs `p` a 106-number row is put together: the attributes of edge `e_idx[1, p]` followed by
  the features of node `atom_index[0, p]` (a negative index counted from the end of its table). A dense layer
  `W_edge`, `b_edge` and the exponential linear unit `elu z = z` for `z > 0`, `1 · (e^z - 1)` otherwise, give a
  64-number message per pair; the messages of all pairs with `e_idx[0, p] = e` are added up into edge `e`'s
  accumulator; and the result is `elu (edge_attr · W_eᵀ + b_e)` plus that accumulator, row by row.
  Every function below is one of these stages, written with the operations of the plain program.
-/
import proofs.«160699_j53644141527057_1_alg».proof.Proof.Gen.ReferenceIdeal

noncomputable section

namespace Cert.ReferenceIdeal.Spec

open Idealize.ShloMosaic Cert.ReferenceIdeal Cert.ReferenceIdeal.Facts₀

variable {F : FTy → Type} [FloatOps F]

/-- Row 0 of a `[2, P]` index table, as a vector `[P]`. -/
def row0 (t : (⟨S2x2000000, .i32⟩ : BufTy).Contents (Elt F)) : (⟨S2000000, .i32⟩ : BufTy).Contents (Elt F) :=
  shapeCast S2000000 (extractStridedSlice S1x2000000 ![0, 0] t slices_S2x2000000_S1x2000000_0_0) shapeCasts_S1x2000000_S2000000

/-- Row 1 of a `[2, P]` index table, as a vector `[P]`. -/
def row1 (t : (⟨S2x2000000, .i32⟩ : BufTy).Contents (Elt F)) : (⟨S2000000, .i32⟩ : BufTy).Contents (Elt F) :=
  shapeCast S2000000 (extractStridedSlice S1x2000000 ![1, 0] t slices_S2x2000000_S1x2000000_1_0) shapeCasts_S1x2000000_S2000000

/-- A vector of indices made a column `[P, 1]`. -/
def col (r : (⟨S2000000, .i32⟩ : BufTy).Contents (Elt F)) : (⟨S2000000x1, .i32⟩ : BufTy).Contents (Elt F) :=
  broadcastInDim S2000000x1 ![0] bcast_S2000000_S2000000x1_0 r

/-- Indices into an axis of extent `n`: a negative one counts from the end (`i + n`). -/
def wrap (n : BitVec 32) (r : (⟨S2000000, .i32⟩ : BufTy).Contents (Elt F)) : (⟨S2000000, .i32⟩ : BufTy).Contents (Elt F) :=
  select (cmpi .slt r (broadcastInDim S2000000 ![] bcast_S_S2000000 (constantI S_ 32 0#32)))
    (addi r (broadcastInDim S2000000 ![] bcast_S_S2000000 (constantI S_ 32 n))) r

/-- A node's features: `x` and `global_state` side by side. -/
def xg (a0 : (⟨S100000x37, .f32⟩ : BufTy).Contents (Elt F)) (a1 : (⟨S100000x5, .f32⟩ : BufTy).Contents (Elt F)) :
    (⟨S100000x42, .f32⟩ : BufTy).Contents (Elt F) :=
  concatenate S100000x42 1 [⟨S100000x37, a0⟩, ⟨S100000x5, a1⟩] concatenates_S100000x37_S100000x5_S100000x42_d1

/-- The pairs' input rows: edge `e_idx[1, p]`'s attributes, then node `atom_index[0, p]`'s features. -/
def feat (a0 : (⟨S100000x37, .f32⟩ : BufTy).Contents (Elt F)) (a1 : (⟨S100000x5, .f32⟩ : BufTy).Contents (Elt F))
    (a2 : (⟨S1000000x64, .f32⟩ : BufTy).Contents (Elt F)) (a7 a8 : (⟨S2x2000000, .i32⟩ : BufTy).Contents (Elt F)) :
    (⟨S2000000x106, .f32⟩ : BufTy).Contents (Elt F) :=
  concatenate S2000000x106 1
    [⟨S2000000x64, Host.gather gather_S1000000x64_S2000000x1_S2000000x64_1_0_n_n_0_1_164 a2 (col (wrap 1000000#32 (row1 a8)))⟩,
     ⟨S2000000x42, Host.gather gather_S100000x42_S2000000x1_S2000000x42_1_0_n_n_0_1_142 (xg a0 a1) (col (wrap 100000#32 (row0 a7)))⟩]
    concatenates_S2000000x64_S2000000x42_S2000000x106_d1

/-- The first layer's weights, transposed to `[106, 64]`. -/
def wT (a3 : (⟨S64x106, .f32⟩ : BufTy).Contents (Elt F)) : (⟨S106x64, .f32⟩ : BufTy).Contents (Elt F) :=
  transpose S106x64 [1, 0] a3 transposes_S64x106_S106x64_1_0

/-- The second layer's weights, transposed. -/
def wT1 (a5 : (⟨S64x64, .f32⟩ : BufTy).Contents (Elt F)) : (⟨S64x64, .f32⟩ : BufTy).Contents (Elt F) :=
  transpose S64x64 [1, 0] a5 transposes_S64x64_S64x64_1_0

/-- The first dense layer over all pairs: `X · w + b`, the bias broadcast over the rows. -/
def z0 (X : (⟨S2000000x106, .f32⟩ : BufTy).Contents (Elt F)) (w : (⟨S106x64, .f32⟩ : BufTy).Contents (Elt F))
    (b : (⟨S64, .f32⟩ : BufTy).Contents (Elt F)) : (⟨S2000000x64, .f32⟩ : BufTy).Contents (Elt F) :=
  addf (Host.dotGeneral dot_S2000000x106_S106x64_S2000000x64_1_0_0_1_n_n none X w)
    (broadcastInDim S2000000x64 ![0, 1] bcast_S1x64_S2000000x64_0_1 (broadcastInDim S1x64 ![1] bcast_S64_S1x64_1 b))

/-- The second dense layer over all edges. -/
def z1 (X : (⟨S1000000x64, .f32⟩ : BufTy).Contents (Elt F)) (w : (⟨S64x64, .f32⟩ : BufTy).Contents (Elt F))
    (b : (⟨S64, .f32⟩ : BufTy).Contents (Elt F)) : (⟨S1000000x64, .f32⟩ : BufTy).Contents (Elt F) :=
  addf (Host.dotGeneral dot_S1000000x64_S64x64_S1000000x64_1_0_0_1_n_n none X w)
    (broadcastInDim S1000000x64 ![0, 1] bcast_S1x64_S1000000x64_0_1 (broadcastInDim S1x64 ![1] bcast_S64_S1x64_1 b))

/-- The exponential linear unit over the pairs' rows: `z` where `z > 0`, else `1 · expm1 z'` with `z'` the
    argument made `0` where `z > 0` (so that the exponential is only taken of non-positive numbers). -/
def elu0 (z : (⟨S2000000x64, .f32⟩ : BufTy).Contents (Elt F)) : (⟨S2000000x64, .f32⟩ : BufTy).Contents (Elt F) :=
  select (cmpf .ogt z (broadcastInDim S2000000x64 ![] bcast_S_S2000000x64 (constant S_ .f32 0x00000000#32))) z
    (mulf (broadcastInDim S2000000x64 ![] bcast_S_S2000000x64 (constant S_ .f32 0x3F800000#32))
      (Host.expm1 (select (cmpf .ogt z (broadcastInDim S2000000x64 ![] bcast_S_S2000000x64 (constant S_ .f32 0x00000000#32)))
        (broadcastInDim S2000000x64 ![] bcast_S_S2000000x64 (constant S_ .f32 0x00000000#32)) z)))

/-- The same over the edges' rows. -/
def elu1 (z : (⟨S1000000x64, .f32⟩ : BufTy).Contents (Elt F)) : (⟨S1000000x64, .f32⟩ : BufTy).Contents (Elt F) :=
  select (cmpf .ogt z (broadcastInDim S1000000x64 ![] bcast_S_S1000000x64 (constant S_ .f32 0x00000000#32))) z
    (mulf (broadcastInDim S1000000x64 ![] bcast_S_S1000000x64 (constant S_ .f32 0x3F800000#32))
      (Host.expm1 (select (cmpf .ogt z (broadcastInDim S1000000x64 ![] bcast_S_S1000000x64 (constant S_ .f32 0x00000000#32)))
        (broadcastInDim S1000000x64 ![] bcast_S_S1000000x64 (constant S_ .f32 0x00000000#32)) z)))

/-- The pairs' messages. -/
def msg (X : (⟨S2000000x106, .f32⟩ : BufTy).Contents (Elt F)) (w : (⟨S106x64, .f32⟩ : BufTy).Contents (Elt F))
    (b : (⟨S64, .f32⟩ : BufTy).Contents (Elt F)) : (⟨S2000000x64, .f32⟩ : BufTy).Contents (Elt F) :=
  elu0 (z0 X w b)

/-- Each edge's accumulator: the sum of the messages of the pairs whose `e_idx[0, p]` is that edge. -/
def acc (a8 : (⟨S2x2000000, .i32⟩ : BufTy).Contents (Elt F)) (u : (⟨S2000000x64, .f32⟩ : BufTy).Contents (Elt F)) :
    (⟨S1000000x64, .f32⟩ : BufTy).Contents (Elt F) :=
  Host.scatterAdd scatter_S1000000x64_S2000000x1_S2000000x64_1_0_0_1
    (broadcastInDim S1000000x64 ![] bcast_S_S1000000x64 (constant S_ .f32 0x00000000#32)) (col (row0 a8)) u

/-- The second layer with its unit, plus an accumulator `e`. -/
def fin (a2 : (⟨S1000000x64, .f32⟩ : BufTy).Contents (Elt F)) (w : (⟨S64x64, .f32⟩ : BufTy).Contents (Elt F))
    (b : (⟨S64, .f32⟩ : BufTy).Contents (Elt F)) (e : (⟨S1000000x64, .f32⟩ : BufTy).Contents (Elt F)) :
    (⟨S1000000x64, .f32⟩ : BufTy).Contents (Elt F) :=
  addf (elu1 (z1 a2 w b)) e

/-- The whole result. -/
def out (a0 : (⟨S100000x37, .f32⟩ : BufTy).Contents (Elt F)) (a1 : (⟨S100000x5, .f32⟩ : BufTy).Contents (Elt F))
    (a2 : (⟨S1000000x64, .f32⟩ : BufTy).Contents (Elt F)) (a3 : (⟨S64x106, .f32⟩ : BufTy).Contents (Elt F))
    (a4 : (⟨S64, .f32⟩ : BufTy).Contents (Elt F)) (a5 : (⟨S64x64, .f32⟩ : BufTy).Contents (Elt F))
    (a6 : (⟨S64, .f32⟩ : BufTy).Contents (Elt F)) (a7 a8 : (⟨S2x2000000, .i32⟩ : BufTy).Contents (Elt F)) :
    (⟨S1000000x64, .f32⟩ : BufTy).Contents (Elt F) :=
  fin a2 (wT1 a5) a6 (acc a8 (msg (feat a0 a1 a2 a7 a8) (wT a3) a4))

end Cert.ReferenceIdeal.Spec

end
-- ==== Proof.RefRun.lean ====
/-
  The plain program's run: every execution ends, with the result array at `Spec.out` of the launch arrays and the
  argument arrays as launched.
-/
import proofs.«160699_j53644141527057_1_alg».proof.Proof.Spec
import Idealize.ShloMosaic.Lib.StableHlo.Run

noncomputable section

namespace Cert.ReferenceIdeal.RefRun

open Idealize.ShloMosaic Idealize.ShloMosaic.StableHlo Idealize.SL.Sem Cert.ReferenceIdeal

variable {F : FTy → Type} [FloatOps F]

section Line

open Cert.ReferenceIdeal.Facts₀

/-- @main's operations in order, the two calls of the exponential linear unit unfolded: each is fifteen operations
    over its call's record — the zero and its broadcast and the comparison `z > 0`, twice; the zero once more and
    the inner selection's three (the zero converted to its own type, broadcast, the select that puts `0` where
    `z > 0`); `expm1`; the one, its broadcast, the product; and the outer select — around them @main's own
    forty-one: the node table's concatenation, the two index columns (slice, reshape, the wrap of negative indices,
    the column), the two gathers and their concatenation, the first dense layer (transpose, product, the bias
    broadcast twice, the sum), then after the first unit the scatter column, the zero table and the scatter-add, the
    second dense layer, and after the second unit the final sum. -/
abbrev ops : List (HloOp τ sig (Elt F)) :=
  [ binary main_arg0 main_arg1 main_v0 ((fun a b => concatenate S100000x42 1 [⟨S100000x37, a⟩, ⟨S100000x5, b⟩] concatenates_S100000x37_S100000x5_S100000x42_d1) : (⟨S100000x37, .f32⟩ : BufTy).Contents (Elt F) → (⟨S100000x5, .f32⟩ : BufTy).Contents (Elt F) → (⟨S100000x42, .f32⟩ : BufTy).Contents (Elt F)),
    unary main_arg8 main_v1 ((extractStridedSlice S1x2000000 ![1, 0] · slices_S2x2000000_S1x2000000_1_0) : (⟨S2x2000000, .i32⟩ : BufTy).Contents (Elt F) → (⟨S1x2000000, .i32⟩ : BufTy).Contents (Elt F)),
    reshape main_v1 main_v2 rfl shapeCasts_S1x2000000_S2000000,
    nullary main_c (constantI S_ 32 0#32),
    unary main_c main_v3 (broadcastInDim S2000000 ![] bcast_S_S2000000 : (⟨S_, .i32⟩ : BufTy).Contents (Elt F) → (⟨S2000000, .i32⟩ : BufTy).Contents (Elt F)),
    binary main_v2 main_v3 main_v4 (cmpi .slt : (⟨S2000000, .i32⟩ : BufTy).Contents (Elt F) → (⟨S2000000, .i32⟩ : BufTy).Contents (Elt F) → (⟨S2000000, .i1⟩ : BufTy).Contents (Elt F)),
    nullary main_c_0 (constantI S_ 32 1000000#32),
    unary main_c_0 main_v5 (broadcastInDim S2000000 ![] bcast_S_S2000000 : (⟨S_, .i32⟩ : BufTy).Contents (Elt F) → (⟨S2000000, .i32⟩ : BufTy).Contents (Elt F)),
    binary main_v2 main_v5 main_v6 (addi : (⟨S2000000, .i32⟩ : BufTy).Contents (Elt F) → (⟨S2000000, .i32⟩ : BufTy).Contents (Elt F) → (⟨S2000000, .i32⟩ : BufTy).Contents (Elt F)),
    ternary main_v4 main_v6 main_v2 main_v7 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v7 main_v8 (broadcastInDim S2000000x1 ![0] bcast_S2000000_S2000000x1_0 : (⟨S2000000, .i32⟩ : BufTy).Contents (Elt F) → (⟨S2000000x1, .i32⟩ : BufTy).Contents (Elt F)),
    binary main_arg2 main_v8 main_v9 ((fun x i => Host.gather gather_S1000000x64_S2000000x1_S2000000x64_1_0_n_n_0_1_164 x i) : (⟨S1000000x64, .f32⟩ : BufTy).Contents (Elt F) → (⟨S2000000x1, .i32⟩ : BufTy).Contents (Elt F) → (⟨S2000000x64, .f32⟩ : BufTy).Contents (Elt F)),
    unary main_arg7 main_v10 ((extractStridedSlice S1x2000000 ![0, 0] · slices_S2x2000000_S1x2000000_0_0) : (⟨S2x2000000, .i32⟩ : BufTy).Contents (Elt F) → (⟨S1x2000000, .i32⟩ : BufTy).Contents (Elt F)),
    reshape main_v10 main_v11 rfl shapeCasts_S1x2000000_S2000000,
    nullary main_c_1 (constantI S_ 32 0#32),
    unary main_c_1 main_v12 (broadcastInDim S2000000 ![] bcast_S_S2000000 : (⟨S_, .i32⟩ : BufTy).Contents (Elt F) → (⟨S2000000, .i32⟩ : BufTy).Contents (Elt F)),
    binary main_v11 main_v12 main_v13 (cmpi .slt : (⟨S2000000, .i32⟩ : BufTy).Contents (Elt F) → (⟨S2000000, .i32⟩ : BufTy).Contents (Elt F) → (⟨S2000000, .i1⟩ : BufTy).Contents (Elt F)),
    nullary main_c_2 (constantI S_ 32 100000#32),
    unary main_c_2 main_v14 (broadcastInDim S2000000 ![] bcast_S_S2000000 : (⟨S_, .i32⟩ : BufTy).Contents (Elt F) → (⟨S2000000, .i32⟩ : BufTy).Contents (Elt F)),
    binary main_v11 main_v14 main_v15 (addi : (⟨S2000000, .i32⟩ : BufTy).Contents (Elt F) → (⟨S2000000, .i32⟩ : BufTy).Contents (Elt F) → (⟨S2000000, .i32⟩ : BufTy).Contents (Elt F)),
    ternary main_v13 main_v15 main_v11 main_v16 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v16 main_v17 (broadcastInDim S2000000x1 ![0] bcast_S2000000_S2000000x1_0 : (⟨S2000000, .i32⟩ : BufTy).Contents (Elt F) → (⟨S2000000x1, .i32⟩ : BufTy).Contents (Elt F)),
    binary main_v0 main_v17 main_v18 ((fun x i => Host.gather gather_S100000x42_S2000000x1_S2000000x42_1_0_n_n_0_1_142 x i) : (⟨S100000x42, .f32⟩ : BufTy).Contents (Elt F) → (⟨S2000000x1, .i32⟩ : BufTy).Contents (Elt F) → (⟨S2000000x42, .f32⟩ : BufTy).Contents (Elt F)),
    binary main_v9 main_v18 main_v19 ((fun a b => concatenate S2000000x106 1 [⟨S2000000x64, a⟩, ⟨S2000000x42, b⟩] concatenates_S2000000x64_S2000000x42_S2000000x106_d1) : (⟨S2000000x64, .f32⟩ : BufTy).Contents (Elt F) → (⟨S2000000x42, .f32⟩ : BufTy).Contents (Elt F) → (⟨S2000000x106, .f32⟩ : BufTy).Contents (Elt F)),
    unary main_arg3 main_v20 ((transpose S106x64 [1, 0] · transposes_S64x106_S106x64_1_0) : (⟨S64x106, .f32⟩ : BufTy).Contents (Elt F) → (⟨S106x64, .f32⟩ : BufTy).Contents (Elt F)),
    binary main_v19 main_v20 main_v21 ((fun l r => Host.dotGeneral dot_S2000000x106_S106x64_S2000000x64_1_0_0_1_n_n none l r) : (⟨S2000000x106, .f32⟩ : BufTy).Contents (Elt F) → (⟨S106x64, .f32⟩ : BufTy).Contents (Elt F) → (⟨S2000000x64, .f32⟩ : BufTy).Contents (Elt F)),
    unary main_arg4 main_v22 (broadcastInDim S1x64 ![1] bcast_S64_S1x64_1 : (⟨S64, .f32⟩ : BufTy).Contents (Elt F) → (⟨S1x64, .f32⟩ : BufTy).Contents (Elt F)),
    unary main_v22 main_v23 (broadcastInDim S2000000x64 ![0, 1] bcast_S1x64_S2000000x64_0_1 : (⟨S1x64, .f32⟩ : BufTy).Contents (Elt F) → (⟨S2000000x64, .f32⟩ : BufTy).Contents (Elt F)),
    binary main_v21 main_v23 main_v24 (addf : (⟨S2000000x64, .f32⟩ : BufTy).Contents (Elt F) → (⟨S2000000x64, .f32⟩ : BufTy).Contents (Elt F) → (⟨S2000000x64, .f32⟩ : BufTy).Contents (Elt F)),
    TRef.nullary main_call0.cst (constant S_ .f32 0x00000000#32),
    TRef.unary main_call0.cst main_call0.v0 (broadcastInDim S2000000x64 ![] bcast_S_S2000000x64),
    TRef.binary (.of main_v24) main_call0.v0 main_call0.v1 (cmpf .ogt),
    TRef.nullary main_call0.cst_0 (constant S_ .f32 0x00000000#32),
    TRef.unary main_call0.cst_0 main_call0.v2 (broadcastInDim S2000000x64 ![] bcast_S_S2000000x64),
    TRef.binary (.of main_v24) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S2000000x64 ![] bcast_S_S2000000x64),
    TRef.ternary main_call0.v3 main_call0.call0.v1 (.of main_v24) main_call0.call0.v2 select,
    TRef.unary main_call0.call0.v2 main_call0.v5 Host.expm1,
    TRef.nullary main_call0.cst_2 (constant S_ .f32 0x3F800000#32),
    TRef.unary main_call0.cst_2 main_call0.v6 (broadcastInDim S2000000x64 ![] bcast_S_S2000000x64),
    TRef.binary main_call0.v6 main_call0.v5 main_call0.v7 mulf,
    TRef.ternary main_call0.v1 (.of main_v24) main_call0.v7 main_call0.call1.v0 select,
    unary main_arg8 main_v26 ((extractStridedSlice S1x2000000 ![0, 0] · slices_S2x2000000_S1x2000000_0_0) : (⟨S2x2000000, .i32⟩ : BufTy).Contents (Elt F) → (⟨S1x2000000, .i32⟩ : BufTy).Contents (Elt F)),
    reshape main_v26 main_v27 rfl shapeCasts_S1x2000000_S2000000,
    nullary main_cst (constant S_ .f32 0x00000000#32),
    unary main_cst main_v28 (broadcastInDim S1000000x64 ![] bcast_S_S1000000x64 : (⟨S_, .f32⟩ : BufTy).Contents (Elt F) → (⟨S1000000x64, .f32⟩ : BufTy).Contents (Elt F)),
    unary main_v27 main_v29 (broadcastInDim S2000000x1 ![0] bcast_S2000000_S2000000x1_0 : (⟨S2000000, .i32⟩ : BufTy).Contents (Elt F) → (⟨S2000000x1, .i32⟩ : BufTy).Contents (Elt F)),
    ternary main_v28 main_v29 main_v25 main_v30 ((fun x i u => Host.scatterAdd scatter_S1000000x64_S2000000x1_S2000000x64_1_0_0_1 x i u) : (⟨S1000000x64, .f32⟩ : BufTy).Contents (Elt F) → (⟨S2000000x1, .i32⟩ : BufTy).Contents (Elt F) → (⟨S2000000x64, .f32⟩ : BufTy).Contents (Elt F) → (⟨S1000000x64, .f32⟩ : BufTy).Contents (Elt F)),
    unary main_arg5 main_v31 ((transpose S64x64 [1, 0] · transposes_S64x64_S64x64_1_0) : (⟨S64x64, .f32⟩ : BufTy).Contents (Elt F) → (⟨S64x64, .f32⟩ : BufTy).Contents (Elt F)),
    binary main_arg2 main_v31 main_v32 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    unary main_arg6 main_v33 (broadcastInDim S1x64 ![1] bcast_S64_S1x64_1 : (⟨S64, .f32⟩ : BufTy).Contents (Elt F) → (⟨S1x64, .f32⟩ : BufTy).Contents (Elt F)),
    unary main_v33 main_v34 (broadcastInDim S1000000x64 ![0, 1] bcast_S1x64_S1000000x64_0_1 : (⟨S1x64, .f32⟩ : BufTy).Contents (Elt F) → (⟨S1000000x64, .f32⟩ : BufTy).Contents (Elt F)),
    binary main_v32 main_v34 main_v35 (addf : (⟨S1000000x64, .f32⟩ : BufTy).Contents (Elt F) → (⟨S1000000x64, .f32⟩ : BufTy).Contents (Elt F) → (⟨S1000000x64, .f32⟩ : BufTy).Contents (Elt F)),
    TRef.nullary main_call1.cst (constant S_ .f32 0x00000000#32),
    TRef.unary main_call1.cst main_call1.v0 (broadcastInDim S1000000x64 ![] bcast_S_S1000000x64),
    TRef.binary (.of main_v35) main_call1.v0 main_call1.v1 (cmpf .ogt),
    TRef.nullary main_call1.cst_0 (constant S_ .f32 0x00000000#32),
    TRef.unary main_call1.cst_0 main_call1.v2 (broadcastInDim S1000000x64 ![] bcast_S_S1000000x64),
    TRef.binary (.of main_v35) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S1000000x64 ![] bcast_S_S1000000x64),
    TRef.ternary main_call1.v3 main_call1.call0.v1 (.of main_v35) main_call1.call0.v2 select,
    TRef.unary main_call1.call0.v2 main_call1.v5 Host.expm1,
    TRef.nullary main_call1.cst_2 (constant S_ .f32 0x3F800000#32),
    TRef.unary main_call1.cst_2 main_call1.v6 (broadcastInDim S1000000x64 ![] bcast_S_S1000000x64),
    TRef.binary main_call1.v6 main_call1.v5 main_call1.v7 mulf,
    TRef.ternary main_call1.v1 (.of main_v35) main_call1.v7 main_call1.call1.v0 select,
    binary main_v36 main_v30 main_v37 (addf : (⟨S1000000x64, .f32⟩ : BufTy).Contents (Elt F) → (⟨S1000000x64, .f32⟩ : BufTy).Contents (Elt F) → (⟨S1000000x64, .f32⟩ : BufTy).Contents (Elt F)) ]

-- both sides are one chain of steps; the unifier walks it once, one level per statement
set_option maxRecDepth 8192 in
/-- @main is that straight line: the functions' definitions unfolded at their calls and the records at their
    fields, both sides compute to one chain of `hlo` steps (sequencing after a step is the step with the rest of the
    line behind it, by the definition of sequencing). -/
theorem main_eq (c : Dev nD) : main (F := F) c = seq ops := rfl

attribute [local irreducible] Host.gather Host.scatterAdd concatenate transpose extractStridedSlice Host.expm1 broadcastInDim shapeCast in
set_option maxRecDepth 16384 in
set_option maxHeartbeats 1000000 in
/-- The fold at the result buffer is `Spec.out` of the argument contents by computation: the fold unrolled, each
    operation's result decides whether the buffer read is the one it writes, and the typed references' casts are the
    identity at these literal references. The gathers, the scatter-add, the concatenations, the transposes, the slices,
    the broadcasts, the reshapes and `expm1` stay folded meanwhile: the equation never looks inside them (both sides
    apply the same function to the same arguments), and their arrays have up to 2,000,000 × 106 entries. -/
theorem out_eq (V : Valuation τ sig (Elt F)) :
    after ops V (Proc.devRef .tc main_v37)
      = Spec.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := rfl

/-! No operation writes an argument buffer: the fold leaves each at what it held. -/

theorem arg0_eq (V : Valuation τ sig (Elt F)) :
    after ops V (Proc.devRef .tc main_arg0) = V (Proc.devRef .tc main_arg0) := rfl

theorem arg1_eq (V : Valuation τ sig (Elt F)) :
    after ops V (Proc.devRef .tc main_arg1) = V (Proc.devRef .tc main_arg1) := rfl

theorem arg2_eq (V : Valuation τ sig (Elt F)) :
    after ops V (Proc.devRef .tc main_arg2) = V (Proc.devRef .tc main_arg2) := rfl

theorem arg3_eq (V : Valuation τ sig (Elt F)) :
    after ops V (Proc.devRef .tc main_arg3) = V (Proc.devRef .tc main_arg3) := rfl

theorem arg4_eq (V : Valuation τ sig (Elt F)) :
    after ops V (Proc.devRef .tc main_arg4) = V (Proc.devRef .tc main_arg4) := rfl

theorem arg5_eq (V : Valuation τ sig (Elt F)) :
    after ops V (Proc.devRef .tc main_arg5) = V (Proc.devRef .tc main_arg5) := rfl

theorem arg6_eq (V : Valuation τ sig (Elt F)) :
    after ops V (Proc.devRef .tc main_arg6) = V (Proc.devRef .tc main_arg6) := rfl

theorem arg7_eq (V : Valuation τ sig (Elt F)) :
    after ops V (Proc.devRef .tc main_arg7) = V (Proc.devRef .tc main_arg7) := rfl

theorem arg8_eq (V : Valuation τ sig (Elt F)) :
    after ops V (Proc.devRef .tc main_arg8) = V (Proc.devRef .tc main_arg8) := rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨
    binary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., unary_bufs_sub .., reshape_bufs_sub .., nullary_bufs_sub .., unary_bufs_sub ..,
    unary_bufs_sub .., ternary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., binary_bufs_sub ..⟩

/-- From any memory with zero counters: every weakly fair execution of @main on the TensorCore terminates, and every
    final state has each TensorCore buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Line

/-- At the compiled mesh, from any memory with zero counters: every weakly fair execution of the plain program's
    @main ends, nothing faulting, its result at `Spec.out` of the argument arrays, the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v37) = Spec.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := F)) _ _).mono (fun _ h c =>
      ⟨(h c main_v37).trans (out_eq _), (h c main_arg0).trans (arg0_eq _), (h c main_arg1).trans (arg1_eq _),
        (h c main_arg2).trans (arg2_eq _), (h c main_arg3).trans (arg3_eq _), (h c main_arg4).trans (arg4_eq _),
        (h c main_arg5).trans (arg5_eq _), (h c main_arg6).trans (arg6_eq _), (h c main_arg7).trans (arg7_eq _),
        (h c main_arg8).trans (arg8_eq _)⟩)
    (run_main m ρ)

end Cert.ReferenceIdeal.RefRun

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.LibEluRows.lean ====
/-
  The exponential linear unit, read entry by entry at the ideal values.

  A kernel spells it `z` where `z > 0` and `exp z - 1` elsewhere; the plain program spells it `z` where `z > 0` and
  `1 · expm1 z'` elsewhere, `z'` being `z` with the positive entries replaced by `0`. Over the extended reals
  `expm1 y = exp y - 1`, the literal `1.0` is the number one, and on the branch that is taken `z' = z`: the two
  spellings are one function of an extended real, whatever the literal `0.0` compares as. Nothing here depends on
  the sizes, nor on the arguments being finite.
-/
import Idealize.ShloMosaic.Lib.ValueIdx
import Idealize.ShloMosaic.Lib.Pipeline.Value
import Idealize.ShloMosaic.PureOps.Ideal.Laws

noncomputable section

namespace Cert.Lib

open Idealize.ShloMosaic Idealize.ShloMosaic.ValueIdx

/-- The f32 literal `1.0` is the number one. -/
theorem ofBits_one_f32 : Ideal.ofBits .f32 0x3F800000#32 = 1 := by
  simp [Ideal.ofBits, Ideal.ieee]
  rw [← EReal.coe_mul]
  norm_num

/-- A rank-0 value broadcast to any shape reads that value everywhere. -/
theorem bcast_scalar_apply {t : Shape} (h0 : (⟨0, ![]⟩ : Shape).BroadcastsInDim t (![] : Fin 0 → Fin t.rank))
    (x : (⟨0, ![]⟩ : Shape).Idx → EReal) (j : t.Idx) :
    broadcastInDim t ![] h0 x j = x ix0 :=
  broadcastInDim_apply _ h0 x j ix0 (fun a => a.elim0)

/-- ENTRY BY ENTRY: where entry `i` of `z` is entry `j` of `Z`, the kernel's unit of `z` at `i` is the plain
    program's unit of `Z` at `j`. -/
theorem elu_rows {s t : Shape} (z : FVec Ideal s .f32) (Z : FVec Ideal t .f32) (i : s.Idx) (j : t.Idx)
    (h0 : (⟨0, ![]⟩ : Shape).BroadcastsInDim t (![] : Fin 0 → Fin t.rank)) (hz : z i = Z j) :
    select (cmpf .ogt z (broadcast s (Scalar.ofBits (F := Ideal) .f32 0x00000000#32))) z
        (subf (exp z) (broadcast s (Scalar.ofBits (F := Ideal) .f32 0x3F800000#32))) i
      = select (cmpf .ogt Z (broadcastInDim t ![] h0 (constant (F := Ideal) ⟨0, ![]⟩ .f32 0x00000000#32))) Z
          (mulf (broadcastInDim t ![] h0 (constant (F := Ideal) ⟨0, ![]⟩ .f32 0x3F800000#32))
            (Host.expm1 (select (cmpf .ogt Z (broadcastInDim t ![] h0 (constant (F := Ideal) ⟨0, ![]⟩ .f32 0x00000000#32)))
              (broadcastInDim t ![] h0 (constant (F := Ideal) ⟨0, ![]⟩ .f32 0x00000000#32)) Z))) j := by
  have e1 : exp z i = Ideal.exp (z i) := rfl
  have e2 : ∀ w : FVec Ideal t .f32, Host.expm1 w j = Ideal.exp (w j) - 1 := fun _ => rfl
  rw [select_apply, select_apply, cmpf_apply, cmpf_apply, subf_apply, mulf_apply, broadcast_apply, broadcast_apply,
    bcast_scalar_apply, bcast_scalar_apply, constant_apply, constant_apply, e1, e2, select_apply, cmpf_apply,
    bcast_scalar_apply, constant_apply, hz]
  show Scalar.select (FloatOps.cmpf .ogt (Z j) (Ideal.ofBits .f32 0x00000000#32)) (Z j)
      (Ideal.exp (Z j) - Ideal.ofBits .f32 0x3F800000#32) = _
  rw [ofBits_one_f32, one_mul]
  unfold Scalar.select
  split
  · rfl
  · rfl

end Cert.Lib

end
-- ==== Proof.Region0.lean ====
/-
  The first layer, tile by tile.

  Pipeline 0 walks the 2,000,000 pair rows in 200 tiles of 10,000. On tile `t` the body multiplies the tile's rows
  by the transposed weights on the matrix unit, adds the bias row and applies the exponential linear unit; the
  tile's rows are rows `10000 t … 10000 t + 9999` of the whole array, so what it writes back is those rows of
  the messages `elu (X · w + b)` of the whole arrays, and the 200 tiles cover every row.
-/
import proofs.«160699_j53644141527057_1_alg».proof.Proof.Gen.KernelIdeal.Frame
import proofs.«160699_j53644141527057_1_alg».proof.Proof.Spec
import proofs.«160699_j53644141527057_1_alg».proof.Proof.LibAffineRows
import proofs.«160699_j53644141527057_1_alg».proof.Proof.LibEluRows

set_option maxRecDepth 16384

noncomputable section

namespace Cert.KernelIdeal.Region0

open Idealize.ShloMosaic Idealize.ShloMosaic.TcCoe Idealize.ShloMosaic.ValueIdx Idealize.SL.Sem Cert.KernelIdeal Cert.KernelIdeal.Gen

/-! ## The two products' dimension numbers are the plain ones -/

/-- The tile product's left operand reads, on its row axis, the result's row. -/
theorem tile_lhs_0 (i : S10000x64.Idx) (q : dot_S10000x106_S106x64_S10000x64_1_0_0_1_n_n.contr.Idx) :
    (dot_S10000x106_S106x64_S10000x64_1_0_0_1_n_n.lhsIdx i q 0).val = (i 0).val := by
  unfold DotDims.lhsIdx
  rw [dif_neg (show ¬(0 : Fin S10000x106.rank) ∈ dot_S10000x106_S106x64_S10000x64_1_0_0_1_n_n.lhsBatch by decide),
    dif_pos (show (0 : Fin S10000x106.rank) ∈ dot_S10000x106_S106x64_S10000x64_1_0_0_1_n_n.lhsNonContracting by decide)]
  rfl

/-- On its column axis, the contracted index. -/
theorem tile_lhs_1 (i : S10000x64.Idx) (q : dot_S10000x106_S106x64_S10000x64_1_0_0_1_n_n.contr.Idx) :
    (dot_S10000x106_S106x64_S10000x64_1_0_0_1_n_n.lhsIdx i q 1).val = (q ⟨0, by decide⟩).val :=
  dot_S10000x106_S106x64_S10000x64_1_0_0_1_n_n.lhsIdx_val_of_single rfl i q

/-- The right operand reads, on its row axis, the contracted index. -/
theorem tile_rhs_0 (i : S10000x64.Idx) (q : dot_S10000x106_S106x64_S10000x64_1_0_0_1_n_n.contr.Idx) :
    (dot_S10000x106_S106x64_S10000x64_1_0_0_1_n_n.rhsIdx i q 0).val = (q ⟨0, by decide⟩).val :=
  dot_S10000x106_S106x64_S10000x64_1_0_0_1_n_n.rhsIdx_val_of_single rfl i q

/-- On its column axis, the result's column. -/
theorem tile_rhs_1 (i : S10000x64.Idx) (q : dot_S10000x106_S106x64_S10000x64_1_0_0_1_n_n.contr.Idx) :
    (dot_S10000x106_S106x64_S10000x64_1_0_0_1_n_n.rhsIdx i q 1).val = (i 1).val := by
  unfold DotDims.rhsIdx
  rw [dif_neg (show ¬(1 : Fin S106x64.rank) ∈ dot_S10000x106_S106x64_S10000x64_1_0_0_1_n_n.rhsBatch by decide),
    dif_pos (show (1 : Fin S106x64.rank) ∈ dot_S10000x106_S106x64_S10000x64_1_0_0_1_n_n.rhsNonContracting by decide)]
  rfl

/-- The tile's product is a plain `[10000, 106] · [106, 64]`. -/
theorem tile_plain : Cert.Lib.PlainDot (R := 10000) (K := 106) (M := 64) dot_S10000x106_S106x64_S10000x64_1_0_0_1_n_n where
  rank := rfl
  size := rfl
  l0 := tile_lhs_0
  l1 := tile_lhs_1
  r0 := tile_rhs_0
  r1 := tile_rhs_1

/-- The whole product's left operand reads, on its row axis, the result's row. -/
theorem whole_lhs_0 (i : Cert.ReferenceIdeal.S2000000x64.Idx) (q : Cert.ReferenceIdeal.dot_S2000000x106_S106x64_S2000000x64_1_0_0_1_n_n.contr.Idx) :
    (Cert.ReferenceIdeal.dot_S2000000x106_S106x64_S2000000x64_1_0_0_1_n_n.lhsIdx i q 0).val = (i 0).val := by
  unfold DotDims.lhsIdx
  rw [dif_neg (show ¬(0 : Fin Cert.ReferenceIdeal.S2000000x106.rank) ∈ Cert.ReferenceIdeal.dot_S2000000x106_S106x64_S2000000x64_1_0_0_1_n_n.lhsBatch by decide),
    dif_pos (show (0 : Fin Cert.ReferenceIdeal.S2000000x106.rank) ∈ Cert.ReferenceIdeal.dot_S2000000x106_S106x64_S2000000x64_1_0_0_1_n_n.lhsNonContracting by decide)]
  rfl

/-- On its column axis, the contracted index. -/
theorem whole_lhs_1 (i : Cert.ReferenceIdeal.S2000000x64.Idx) (q : Cert.ReferenceIdeal.dot_S2000000x106_S106x64_S2000000x64_1_0_0_1_n_n.contr.Idx) :
    (Cert.ReferenceIdeal.dot_S2000000x106_S106x64_S2000000x64_1_0_0_1_n_n.lhsIdx i q 1).val = (q ⟨0, by decide⟩).val :=
  Cert.ReferenceIdeal.dot_S2000000x106_S106x64_S2000000x64_1_0_0_1_n_n.lhsIdx_val_of_single rfl i q

/-- The right operand reads, on its row axis, the contracted index. -/
theorem whole_rhs_0 (i : Cert.ReferenceIdeal.S2000000x64.Idx) (q : Cert.ReferenceIdeal.dot_S2000000x106_S106x64_S2000000x64_1_0_0_1_n_n.contr.Idx) :
    (Cert.ReferenceIdeal.dot_S2000000x106_S106x64_S2000000x64_1_0_0_1_n_n.rhsIdx i q 0).val = (q ⟨0, by decide⟩).val :=
  Cert.ReferenceIdeal.dot_S2000000x106_S106x64_S2000000x64_1_0_0_1_n_n.rhsIdx_val_of_single rfl i q

/-- On its column axis, the result's column. -/
theorem whole_rhs_1 (i : Cert.ReferenceIdeal.S2000000x64.Idx) (q : Cert.ReferenceIdeal.dot_S2000000x106_S106x64_S2000000x64_1_0_0_1_n_n.contr.Idx) :
    (Cert.ReferenceIdeal.dot_S2000000x106_S106x64_S2000000x64_1_0_0_1_n_n.rhsIdx i q 1).val = (i 1).val := by
  unfold DotDims.rhsIdx
  rw [dif_neg (show ¬(1 : Fin Cert.ReferenceIdeal.S106x64.rank) ∈ Cert.ReferenceIdeal.dot_S2000000x106_S106x64_S2000000x64_1_0_0_1_n_n.rhsBatch by decide),
    dif_pos (show (1 : Fin Cert.ReferenceIdeal.S106x64.rank) ∈ Cert.ReferenceIdeal.dot_S2000000x106_S106x64_S2000000x64_1_0_0_1_n_n.rhsNonContracting by decide)]
  rfl

/-- The plain program's product is a plain `[2000000, 106] · [106, 64]`. -/
theorem whole_plain : Cert.Lib.PlainDot (R := 2000000) (K := 106) (M := 64) Cert.ReferenceIdeal.dot_S2000000x106_S106x64_S2000000x64_1_0_0_1_n_n where
  rank := rfl
  size := rfl
  l0 := whole_lhs_0
  l1 := whole_lhs_1
  r0 := whole_rhs_0
  r1 := whole_rhs_1

/-! ## One tile's rows are rows of the messages -/

/-- Where row `r` of the tile `x0` is row `n r` of `X`, the weights' block is the weights `w` and the bias block's row is
    the bias vector `b`, the body's result at `(r, q)` is the message of pair `n r` at `q`: the tile's dense layer is
    the whole one row by row, and the two spellings of the exponential linear unit agree entry by entry. -/
theorem pay_rows (x0 : Vec Ideal S10000x106 .f32) (x1 : Vec Ideal S106x64 .f32) (x2 : Vec Ideal S1x64 .f32)
    (X : FVec Ideal S2000000x106 .f32) (w : FVec Ideal S106x64 .f32) (b : FVec Ideal S64 .f32) (n : Fin 10000 → Fin 2000000)
    (hx : ∀ r k, x0 (ix2 r k) = X (ix2 (n r) k)) (hw : x1 = w) (hb : ∀ q : Fin 64, x2 (ix2 (0 : Fin 1) q) = b (ix1 q))
    (r : Fin 10000) (q : Fin 64) :
    k0_pay1 (F := Ideal) x0 x1 x2 (ix2 r q) = Cert.ReferenceIdeal.Spec.msg (F := Ideal) X w b (ix2 (n r) q) := by
  subst hw
  unfold k0_pay1 Cert.ReferenceIdeal.Spec.msg Cert.ReferenceIdeal.Spec.elu0 Cert.ReferenceIdeal.Spec.z0
  rw [shapeCast_self x0, shapeCast_self x1]
  exact Cert.Lib.elu_rows _ _ (ix2 r q) (ix2 (n r) q) _
    (Cert.Lib.affine_rows tile_plain whole_plain x0 X x1 x2 b n hx hb _ _ _ _ _ r q)

/-! ## From the tiles to the whole array -/

variable (V : (c : Dev nD) → (b : Ref sig .tc) → Buf (Elt Ideal) ((c : Thread nD τ).loc b))

/-- The body's accesses start at the origin of their staging buffers. -/
theorem origin : (![0, 0] : Fin 2 → Nat) = fun _ => 0 := funext fun a => by fin_cases a <;> rfl

/-- The program's index maps over the 200 tiles: the pair rows and the messages move by whole tiles, `t` tiles down at
    tile `t`, and the weights and the bias row stay where they are. -/
theorem tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of tile `t` is row `10000 t + r` of the pairs. -/
def rowOf (t : Fin cfg0.N) (r : Fin 10000) : Fin 2000000 :=
  ⟨t.val * 10000 + r.val, by have := t.isLt; have := r.isLt; show t.val * 10000 + r.val < 2000000; have h : cfg0.N = 200 := rfl; omega⟩

/-- WHAT TILE `t` WRITES BACK is block `t` of the messages of the region's input arrays. -/
theorem tile_writes (c : Dev nD) (b : FVec Ideal S64 .f32)
    (hb : ∀ q : Fin 64, (V c main_v21 : FVec Ideal S1x64 .f32) (ix2 (0 : Fin 1) q) = b (ix1 q)) (t : Fin cfg0.N) :
    (dat0 (F := Ideal) V c).flushed 3 t
      = ((cfg0.win 3).blk t).view.read (Elt Ideal) (Cert.ReferenceIdeal.Spec.msg (F := Ideal) (V c main_v19) (V c main_v20) b) := by
  show (cfg0.win 3).cut (grid0.coords t) ((dat0 V c).after 3 t) = _
  rw [after0_3]
  unfold out0_3
  rw [View.canon_unit_zero origin]
  simp only [View.ld_unit_zero (S := S10000x106) origin, View.ld_unit_zero (S := S106x64) origin, View.ld_unit_zero (S := S1x64) origin]
  obtain ⟨e00, e01, e10, e11, e20, e21, e30, e31⟩ := tile_index t
  funext j
  obtain ⟨r, q, rfl⟩ : ∃ (r : Fin 10000) (q : Fin 64), j = ix2 r q := ⟨j 0, j 1, eq_ix2 j⟩
  show k0_pay1 (F := Ideal) (iblk0 V c 0 t) (iblk0 V c 1 t) (iblk0 V c 2 t) (ix2 r q)
    = Cert.ReferenceIdeal.Spec.msg (F := Ideal) (V c main_v19) (V c main_v20) b (((cfg0.win 3).blk t).view.emb (ix2 r q))
  have hemb : ((cfg0.win 3).blk t).view.emb (ix2 r q) = ix2 (rowOf t r) q := by
    funext a; apply Fin.ext
    match a with
    | ⟨0, _⟩ => show win0_3.index t (0 : Fin 2) * 10000 + 1 * r.val = t.val * 10000 + r.val; omega
    | ⟨1, _⟩ => show win0_3.index t (1 : Fin 2) * 64 + 1 * q.val = q.val; omega
  rw [hemb]
  refine pay_rows (iblk0 V c 0 t) (iblk0 V c 1 t) (iblk0 V c 2 t) (V c main_v19) (V c main_v20) b (rowOf t) ?_ ?_ ?_ r q
  · intro r k
    show (V c main_v19 : FVec Ideal S2000000x106 .f32) (((cfg0.win 0).blk t).view.emb (ix2 r k)) = V c main_v19 (ix2 (rowOf t r) k)
    refine congrArg (V c main_v19 : FVec Ideal S2000000x106 .f32) (funext fun a => Fin.ext ?_)
    match a with
    | ⟨0, _⟩ => show win0_0.index t (0 : Fin 2) * 10000 + 1 * r.val = t.val * 10000 + r.val; omega
    | ⟨1, _⟩ => show win0_0.index t (1 : Fin 2) * 106 + 1 * k.val = k.val; omega
  · funext j
    show (V c main_v20 : FVec Ideal S106x64 .f32) (((cfg0.win 1).blk t).view.emb j) = V c main_v20 j
    refine congrArg (V c main_v20 : FVec Ideal S106x64 .f32) (funext fun a => Fin.ext ?_)
    match a with
    | ⟨0, _⟩ => show win0_1.index t (0 : Fin 2) * 106 + 1 * (j 0).val = (j 0).val; omega
    | ⟨1, _⟩ => show win0_1.index t (1 : Fin 2) * 64 + 1 * (j 1).val = (j 1).val; omega
  · intro q
    refine Eq.trans ?_ (hb q)
    show (V c main_v21 : FVec Ideal S1x64 .f32) (((cfg0.win 2).blk t).view.emb (ix2 (0 : Fin 1) q)) = V c main_v21 (ix2 (0 : Fin 1) q)
    refine congrArg (V c main_v21 : FVec Ideal S1x64 .f32) (funext fun a => Fin.ext ?_)
    match a with
    | ⟨0, _⟩ => show win0_2.index t (0 : Fin 2) * 1 + 1 * 0 = 0; omega
    | ⟨1, _⟩ => show win0_2.index t (1 : Fin 2) * 64 + 1 * q.val = q.val; omega

/-- A row of the messages is in tile `t`'s block iff each coordinate is in the block's range on its axis. -/
theorem mem_tile (t : Fin cfg0.N) (i : S2000000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v22).slice (win0_3.rect t)).set ↔ _
  rw [View.set_slice_whole, Rect.mem_set_unit]
  exact Iff.rfl

/-- THE TILES COVER THE ARRAY: row `p` lies in tile `p / 10000`, which writes back. -/
theorem covered (i : S2000000x64.Idx) :
    ∃ t : Fin cfg0.N, (cfg0.win 3).flush t = true ∧ i ∈ ((cfg0.win 3).blk t).view.set := by
  have hi0 : (i 0).val < 2000000 := (i 0).isLt
  have hi1 : (i 1).val < 64 := (i 1).isLt
  have hN : cfg0.N = 200 := rfl
  have ht : (i 0).val / 10000 < cfg0.N := by rw [hN]; omega
  obtain ⟨-, -, -, -, -, -, e30, e31⟩ := tile_index ⟨(i 0).val / 10000, ht⟩
  have e30' : win0_3.index ⟨(i 0).val / 10000, ht⟩ (0 : Fin 2) = (i 0).val / 10000 := e30
  refine ⟨⟨(i 0).val / 10000, ht⟩, flush0_3 _, ?_⟩
  rw [mem_tile]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    omega
  | ⟨1, _⟩ =>
    show win0_3.index ⟨(i 0).val / 10000, ht⟩ (1 : Fin 2) * 64 ≤ (i 1).val
      ∧ (i 1).val < win0_3.index ⟨(i 0).val / 10000, ht⟩ (1 : Fin 2) * 64 + 64
    omega

/-- THE ARRAY AFTER THE REGION: the messages of all pairs, as the plain program computes them from the region's
    input arrays (`b` the bias vector whose row the third window holds). -/
theorem arr (c : Dev nD) (b : FVec Ideal S64 .f32)
    (hb : ∀ q : Fin 64, (V c main_v21 : FVec Ideal S1x64 .f32) (ix2 (0 : Fin 1) q) = b (ix1 q)) :
    (dat0 (F := Ideal) V c).arrAt 3 cfg0.N
      = Cert.ReferenceIdeal.Spec.msg (F := Ideal) (V c main_v19) (V c main_v20) b :=
  (dat0 (F := Ideal) V c).arrAt_eq_of_cover 3 (Cert.ReferenceIdeal.Spec.msg (F := Ideal) (V c main_v19) (V c main_v20) b)
    (fun t _ => tile_writes V c b hb t) covered

end Cert.KernelIdeal.Region0

end
-- ==== Proof.Region1.lean ====
/-
  The second layer, tile by tile.

  Pipeline 1 walks the 1,000,000 edge rows in 100 tiles of 10,000. On tile `t` the body multiplies the tile's rows
  of `edge_attr` by the transposed weights, adds the bias row, applies the exponential linear unit and adds the same
  rows of the accumulator; what it writes back is rows `10000 t … 10000 t + 9999` of
  `elu (edge_attr · w + b) + acc` of the whole arrays, and the 100 tiles cover every row.
-/
import proofs.«160699_j53644141527057_1_alg».proof.Proof.Gen.KernelIdeal.Frame
import proofs.«160699_j53644141527057_1_alg».proof.Proof.Spec
import proofs.«160699_j53644141527057_1_alg».proof.Proof.LibAffineRows
import proofs.«160699_j53644141527057_1_alg».proof.Proof.LibEluRows

set_option maxRecDepth 16384

noncomputable section

namespace Cert.KernelIdeal.Region1

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ## Both products are the plain matrix product

The tile's matrix unit and the plain program's `dot_general` carry the same dimension numbers: the left operand's
column is contracted with the right operand's row, and the result's row and column are the left operand's row and
the right operand's column. Each fact is read off the record at one literal axis. -/

theorem tile_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem tile_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single (cl := 1) rfl i q

theorem tile_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single (cr := 0) rfl i q

theorem tile_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The tile's product: 10,000 rows by the 64 columns of the weights, one contracted index of extent 64. -/
theorem tile_plain : Cert.Lib.PlainDot dot_S10000x64_S64x64_S10000x64_1_0_0_1_n_n where
  rank := rfl
  size := rfl
  l0 := tile_lhs_0
  l1 := tile_lhs_1
  r0 := tile_rhs_0
  r1 := tile_rhs_1

theorem whole_lhs_0 (i : Cert.ReferenceIdeal.S1000000x64.Idx) (q : Cert.ReferenceIdeal.dot_S1000000x64_S64x64_S1000000x64_1_0_0_1_n_n.contr.Idx) :
    (Cert.ReferenceIdeal.dot_S1000000x64_S64x64_S1000000x64_1_0_0_1_n_n.lhsIdx i q 0).val = (i 0).val := by
  unfold DotDims.lhsIdx
  rw [dif_neg (show ¬(0 : Fin Cert.ReferenceIdeal.S1000000x64.rank) ∈ Cert.ReferenceIdeal.dot_S1000000x64_S64x64_S1000000x64_1_0_0_1_n_n.lhsBatch by decide),
    dif_pos (show (0 : Fin Cert.ReferenceIdeal.S1000000x64.rank) ∈ Cert.ReferenceIdeal.dot_S1000000x64_S64x64_S1000000x64_1_0_0_1_n_n.lhsNonContracting by decide)]
  rfl

theorem whole_lhs_1 (i : Cert.ReferenceIdeal.S1000000x64.Idx) (q : Cert.ReferenceIdeal.dot_S1000000x64_S64x64_S1000000x64_1_0_0_1_n_n.contr.Idx) :
    (Cert.ReferenceIdeal.dot_S1000000x64_S64x64_S1000000x64_1_0_0_1_n_n.lhsIdx i q 1).val = (q ⟨0, by decide⟩).val :=
  Cert.ReferenceIdeal.dot_S1000000x64_S64x64_S1000000x64_1_0_0_1_n_n.lhsIdx_val_of_single (cl := 1) rfl i q

theorem whole_rhs_0 (i : Cert.ReferenceIdeal.S1000000x64.Idx) (q : Cert.ReferenceIdeal.dot_S1000000x64_S64x64_S1000000x64_1_0_0_1_n_n.contr.Idx) :
    (Cert.ReferenceIdeal.dot_S1000000x64_S64x64_S1000000x64_1_0_0_1_n_n.rhsIdx i q 0).val = (q ⟨0, by decide⟩).val :=
  Cert.ReferenceIdeal.dot_S1000000x64_S64x64_S1000000x64_1_0_0_1_n_n.rhsIdx_val_of_single (cr := 0) rfl i q

theorem whole_rhs_1 (i : Cert.ReferenceIdeal.S1000000x64.Idx) (q : Cert.ReferenceIdeal.dot_S1000000x64_S64x64_S1000000x64_1_0_0_1_n_n.contr.Idx) :
    (Cert.ReferenceIdeal.dot_S1000000x64_S64x64_S1000000x64_1_0_0_1_n_n.rhsIdx i q 1).val = (i 1).val := by
  unfold DotDims.rhsIdx
  rw [dif_neg (show ¬(1 : Fin Cert.ReferenceIdeal.S64x64.rank) ∈ Cert.ReferenceIdeal.dot_S1000000x64_S64x64_S1000000x64_1_0_0_1_n_n.rhsBatch by decide),
    dif_pos (show (1 : Fin Cert.ReferenceIdeal.S64x64.rank) ∈ Cert.ReferenceIdeal.dot_S1000000x64_S64x64_S1000000x64_1_0_0_1_n_n.rhsNonContracting by decide)]
  rfl

/-- The plain program's product over all 1,000,000 rows: the same dimension numbers. -/
theorem whole_plain : Cert.Lib.PlainDot Cert.ReferenceIdeal.dot_S1000000x64_S64x64_S1000000x64_1_0_0_1_n_n where
  rank := rfl
  size := rfl
  l0 := whole_lhs_0
  l1 := whole_lhs_1
  r0 := whole_rhs_0
  r1 := whole_rhs_1

/-! ## One tile's result, entry by entry -/

/-- Where row `r` of the tile `x0` is row `n r` of `X`, row `r` of the accumulator tile `acc0` is row `n r` of
    `ACC`, and the bias block's row is the bias vector, the body's result at `(r, q)` is the plain program's
    `elu (X · w + b) + ACC` at `(n r, q)`. -/
theorem tile_value (x0 acc0 : Vec Ideal S10000x64 .f32) (w : Vec Ideal S64x64 .f32) (x3 : Vec Ideal S1x64 .f32)
    (X ACC : Vec Ideal S1000000x64 .f32) (b : FVec Ideal S64 .f32) (n : Fin 10000 → Fin 1000000)
    (hx : ∀ (r : Fin 10000) (k : Fin 64), x0 (ix2 r k) = X (ix2 (n r) k))
    (ha : ∀ (r : Fin 10000) (q : Fin 64), acc0 (ix2 r q) = ACC (ix2 (n r) q))
    (hb : ∀ q : Fin 64, x3 (ix2 (0 : Fin 1) q) = b (ix1 q)) (r : Fin 10000) (q : Fin 64) :
    k1_pay1 x0 w x3 acc0 (ix2 r q) = Cert.ReferenceIdeal.Spec.fin (F := Ideal) X w b ACC (ix2 (n r) q) := by
  unfold k1_pay1 Cert.ReferenceIdeal.Spec.fin Cert.ReferenceIdeal.Spec.elu1 Cert.ReferenceIdeal.Spec.z1
  dsimp only
  rw [shapeCast_self w, shapeCast_self acc0, addf_apply, addf_apply, ha]
  exact congrArg (· + ACC (ix2 (n r) q)) (Cert.Lib.elu_rows _ _ (ix2 r q) (ix2 (n r) q) _
    (Cert.Lib.affine_rows tile_plain whole_plain x0 X w x3 b n hx hb _ _ _ _ _ r q))

/-! ## The tiles' rows in the whole arrays -/

theorem zero_offsets : (![0, 0] : Fin 2 → Nat) = fun _ => 0 := funext fun a => by fin_cases a <;> rfl

/-- Row `r` of tile `t` is row `10000 t + r` of the whole arrays. -/
def rowOf (t : Fin cfg1.N) (r : Fin 10000) : Fin 1000000 :=
  ⟨10000 * t.val + r.val, by have := Nat.lt_of_lt_of_eq t.isLt N_1; omega⟩

/-- The printed index maps over the 100 tiles: the edge rows, the accumulator rows and the output rows move together,
    one block of rows per tile; the weights and the bias row stay at block (0, 0). -/
theorem tile_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The edge-attribute tile at `t` holds rows `10000 t …` of `edge_attr`. -/
theorem attr_tile (c : Dev nD) (t : Fin cfg1.N) (r : Fin 10000) (k : Fin 64) :
    (iblk1 V c 0 t : Vec Ideal S10000x64 .f32) (ix2 r k) = (V c main_arg2 : Vec Ideal S1000000x64 .f32) (ix2 (rowOf t r) k) := by
  obtain ⟨e0, e1, -⟩ := tile_indices t
  unfold iblk1
  rw [View.read_apply]
  show V c main_arg2 _ = V c main_arg2 _
  refine congrArg _ (funext fun a => Fin.ext ?_)
  match a with
  | ⟨0, _⟩ => show win1_0.index t (0 : Fin 2) * 10000 + 1 * r.val = 10000 * t.val + r.val; omega
  | ⟨1, _⟩ => show win1_0.index t (1 : Fin 2) * 64 + 1 * k.val = k.val; omega

/-- The accumulator tile at `t` holds the same rows of the accumulator. -/
theorem acc_tile (c : Dev nD) (t : Fin cfg1.N) (r : Fin 10000) (q : Fin 64) :
    (iblk1 V c 1 t : Vec Ideal S10000x64 .f32) (ix2 r q) = (V c main_v27 : Vec Ideal S1000000x64 .f32) (ix2 (rowOf t r) q) := by
  obtain ⟨-, -, e0, e1, -⟩ := tile_indices t
  unfold iblk1
  rw [View.read_apply]
  show V c main_v27 _ = V c main_v27 _
  refine congrArg _ (funext fun a => Fin.ext ?_)
  match a with
  | ⟨0, _⟩ => show win1_1.index t (0 : Fin 2) * 10000 + 1 * r.val = 10000 * t.val + r.val; omega
  | ⟨1, _⟩ => show win1_1.index t (1 : Fin 2) * 64 + 1 * q.val = q.val; omega

/-- The weights' block is the whole weight matrix at every tile. -/
theorem weights_tile (c : Dev nD) (t : Fin cfg1.N) :
    (iblk1 V c 2 t : Vec Ideal S64x64 .f32) = (V c main_v28 : Vec Ideal S64x64 .f32) := by
  obtain ⟨-, -, -, -, e0, e1, -⟩ := tile_indices t
  funext j
  obtain ⟨k, q, rfl⟩ : ∃ (k : Fin 64) (q : Fin 64), j = ix2 k q := ⟨j 0, j 1, eq_ix2 j⟩
  unfold iblk1
  rw [View.read_apply]
  show V c main_v28 _ = V c main_v28 _
  refine congrArg _ (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

/-- The bias block is the whole bias row at every tile. -/
theorem bias_tile (c : Dev nD) (t : Fin cfg1.N) (q : Fin 64) :
    (iblk1 V c 3 t : Vec Ideal S1x64 .f32) (ix2 (0 : Fin 1) q) = (V c main_v29 : Vec Ideal S1x64 .f32) (ix2 (0 : Fin 1) q) := by
  obtain ⟨-, -, -, -, -, -, e0, e1, -⟩ := tile_indices t
  unfold iblk1
  rw [View.read_apply]
  show V c main_v29 _ = V c main_v29 _
  refine congrArg _ (funext fun a => Fin.ext ?_)
  match a with
  | ⟨0, _⟩ => show win1_3.index t (0 : Fin 2) * 1 + 1 * 0 = 0; omega
  | ⟨1, _⟩ => show win1_3.index t (1 : Fin 2) * 64 + 1 * q.val = q.val; omega

/-- An entry of the output tile at `t` sits in the output array at the same rows. -/
theorem out_tile (t : Fin cfg1.N) (r : Fin 10000) (q : Fin 64) :
    (((cfg1.win 4).blk t).view.emb (ix2 r q) : S1000000x64.Idx) = ix2 (rowOf t r) q := by
  obtain ⟨-, -, -, -, -, -, -, -, e0, e1⟩ := tile_indices t
  refine funext fun a => Fin.ext ?_
  match a with
  | ⟨0, _⟩ => show win1_4.index t (0 : Fin 2) * 10000 + 1 * r.val = 10000 * t.val + r.val; omega
  | ⟨1, _⟩ => show win1_4.index t (1 : Fin 2) * 64 + 1 * q.val = q.val; omega

/-! ## What a tile writes back, and the whole array -/

/-- WHAT TILE `t` WRITES BACK is block `t` of the plain program's result over the whole arrays. -/
theorem written_tile (c : Dev nD) (b : FVec Ideal S64 .f32)
    (hb : ∀ q : Fin 64, (V c main_v29 : FVec Ideal S1x64 .f32) (ix2 (0 : Fin 1) q) = b (ix1 q)) (t : Fin cfg1.N) :
    (dat1 (F := Ideal) V c).flushed 4 t = ((cfg1.win 4).blk t).view.read (Elt Ideal)
      (Cert.ReferenceIdeal.Spec.fin (F := Ideal) (V c main_arg2) (V c main_v28) b (V c main_v27)) := by
  show (cfg1.win 4).cut (grid1.coords t) ((dat1 V c).after 4 t) = _
  rw [after1_4]
  unfold out1_4
  rw [View.canon_unit_zero zero_offsets]
  simp only [View.ld_unit_zero (S := S10000x64) zero_offsets, View.ld_unit_zero (S := S64x64) zero_offsets,
    View.ld_unit_zero (S := S1x64) zero_offsets]
  funext j
  obtain ⟨r, q, rfl⟩ : ∃ (r : Fin 10000) (q : Fin 64), j = ix2 r q := ⟨j 0, j 1, eq_ix2 j⟩
  refine (tile_value (iblk1 V c 0 t) (iblk1 V c 1 t) (iblk1 V c 2 t) (iblk1 V c 3 t) (V c main_arg2) (V c main_v27) b
    (rowOf t) (attr_tile V c t) (acc_tile V c t) (fun q => (bias_tile V c t q).trans (hb q)) r q).trans ?_
  rw [weights_tile V c t, View.read_apply]
  exact congrArg (Cert.ReferenceIdeal.Spec.fin (F := Ideal) (V c main_arg2) (V c main_v28) b (V c main_v27)) (out_tile t r q).symm

/-- An index of the output array is in tile `t`'s block iff each coordinate is in the block's range on its axis. -/
theorem mem_tile (t : Fin cfg1.N) (i : S1000000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v30).slice (win1_4.rect t)).set ↔ _
  rw [View.set_slice_whole, Rect.mem_set_unit]
  exact Iff.rfl

/-- THE 100 TILES COVER EVERY ROW: row `r` is in tile `r / 10000`, which writes its block back. -/
theorem tiles_cover (i : S1000000x64.Idx) :
    ∃ t : Fin cfg1.N, (cfg1.win 4).flush t = true ∧ i ∈ ((cfg1.win 4).blk t).view.set := by
  have hi0 : (i 0).val < 1000000 := (i 0).isLt
  have hi1 : (i 1).val < 64 := (i 1).isLt
  obtain ⟨t, ht⟩ : ∃ t : Fin cfg1.N, t.val = (i 0).val / 10000 :=
    ⟨⟨(i 0).val / 10000, by rw [show cfg1.N = 100 from N_1]; omega⟩, rfl⟩
  obtain ⟨-, -, -, -, -, -, -, -, e0, e1⟩ := tile_indices t
  refine ⟨t, flush1_4 t, ?_⟩
  rw [mem_tile]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 64 ≤ (i 1).val ∧ (i 1).val < win1_4.index t (1 : Fin 2) * 64 + 64
    omega

/-- THE ARRAY AFTER THE REGION: the second layer with its unit over all edges plus the accumulator, as the plain
    program computes it from the region's input arrays (`b` the bias vector whose row the fourth window holds). -/
theorem arr (c : Dev nD) (b : FVec Ideal S64 .f32)
    (hb : ∀ q : Fin 64, (V c main_v29 : FVec Ideal S1x64 .f32) (ix2 (0 : Fin 1) q) = b (ix1 q)) :
    (dat1 (F := Ideal) V c).arrAt 4 cfg1.N
      = Cert.ReferenceIdeal.Spec.fin (F := Ideal) (V c main_arg2) (V c main_v28) b (V c main_v27) :=
  (dat1 (F := Ideal) V c).arrAt_eq_of_cover 4 _ (fun t _ => written_tile V c b hb t) tiles_cover

end Cert.KernelIdeal.Region1

end
-- ==== Proof.KOut.lean ====
/-
  The kernel program's result, read back through its two regions and the host operations around them.

  After the second region the result array holds `elu (edge_attr · W_eᵀ + b_e) + acc` (Region1), `acc` being what
  the host's scatter-add made of the first region's array; that array holds the messages of all pairs (Region0),
  computed from the rows the host gathered and concatenated before the first region. Every host operation is the
  plain program's own, so the whole is `Spec.out` of the launch arrays.
-/
import proofs.«160699_j53644141527057_1_alg».proof.Proof.Gen.KernelIdeal.Frame
import proofs.«160699_j53644141527057_1_alg».proof.Proof.Spec
import proofs.«160699_j53644141527057_1_alg».proof.Proof.Region0
import proofs.«160699_j53644141527057_1_alg».proof.Proof.Region1
import Idealize.ShloMosaic.Lib.StableHlo.Run

set_option maxRecDepth 16384

noncomputable section

namespace Cert.KernelIdeal.KOut

open Idealize.ShloMosaic Idealize.ShloMosaic.TcCoe Idealize.ShloMosaic.ValueIdx Idealize.ShloMosaic.StableHlo Idealize.SL.Sem Cert.KernelIdeal Cert.KernelIdeal.Gen

/-! ## The host operations before each region, read at the buffers the regions take

Each stretch is read over an arbitrary valuation `W` of the buffers at its start. -/

section Host

variable (W : Valuation τ sig (Elt Ideal))

/-- The first stretch leaves in `main_v20` the transposed weights of the first layer. -/
theorem wT_of :
    StableHlo.after (hostOps0 (F := Ideal)) W (Proc.devRef .tc main_v20)
      = Cert.ReferenceIdeal.Spec.wT (F := Ideal) (W (Proc.devRef .tc main_arg3)) := by
  after_results
  rfl

/-- The second stretch leaves in `main_v28` the transposed weights of the second layer. -/
theorem wT1_of :
    StableHlo.after (hostOps1 (F := Ideal)) W (Proc.devRef .tc main_v28)
      = Cert.ReferenceIdeal.Spec.wT1 (F := Ideal) (W (Proc.devRef .tc main_arg5)) := by
  after_results
  rfl

/-- The first stretch leaves in `main_v21` the first bias as a row. -/
theorem b0_of (q : Fin 64) :
    (StableHlo.after (hostOps0 (F := Ideal)) W (Proc.devRef .tc main_v21) : FVec Ideal S1x64 .f32) (ix2 (0 : Fin 1) q)
      = (W (Proc.devRef .tc main_arg4) : FVec Ideal S64 .f32) (ix1 q) := by
  after_results
  exact shapeCast_a_1a_apply _ _ _ _

/-- The second stretch leaves in `main_v29` the second bias as a row. -/
theorem b1_of (q : Fin 64) :
    (StableHlo.after (hostOps1 (F := Ideal)) W (Proc.devRef .tc main_v29) : FVec Ideal S1x64 .f32) (ix2 (0 : Fin 1) q)
      = (W (Proc.devRef .tc main_arg6) : FVec Ideal S64 .f32) (ix1 q) := by
  after_results
  exact shapeCast_a_1a_apply _ _ _ _

end Host

section HostBig

variable (W : Valuation τ sig (Elt Ideal))

attribute [local irreducible] Host.gather Host.scatterAdd concatenate transpose extractStridedSlice broadcastInDim select cmpi addi in
/-- The first stretch leaves in `main_v19` the pairs' input rows: the gathered edge attributes beside the gathered
    node features, the indices wrapped and made columns exactly as the plain program does. -/
theorem feat_of :
    StableHlo.after (hostOps0 (F := Ideal)) W (Proc.devRef .tc main_v19)
      = Cert.ReferenceIdeal.Spec.feat (F := Ideal) (W (Proc.devRef .tc main_arg0)) (W (Proc.devRef .tc main_arg1))
          (W (Proc.devRef .tc main_arg2)) (W (Proc.devRef .tc main_arg7)) (W (Proc.devRef .tc main_arg8)) := by
  after_results_simp
  simp only [Cert.ReferenceIdeal.Spec.feat, Cert.ReferenceIdeal.Spec.xg, Cert.ReferenceIdeal.Spec.col,
    Cert.ReferenceIdeal.Spec.wrap, Cert.ReferenceIdeal.Spec.row0, Cert.ReferenceIdeal.Spec.row1]
  rfl

attribute [local irreducible] Host.gather Host.scatterAdd concatenate transpose extractStridedSlice broadcastInDim select cmpi addi in
/-- The second stretch leaves in `main_v27` the accumulators: the rows `main_v22` holds, added up by row 0 of
    `e_idx` into a zero array. -/
theorem acc_of :
    StableHlo.after (hostOps1 (F := Ideal)) W (Proc.devRef .tc main_v27)
      = Cert.ReferenceIdeal.Spec.acc (F := Ideal) (W (Proc.devRef .tc main_arg8)) (W (Proc.devRef .tc main_v22)) := by
  after_results
  simp only [Cert.ReferenceIdeal.Spec.acc, Cert.ReferenceIdeal.Spec.col, Cert.ReferenceIdeal.Spec.row0]
  rfl

end HostBig

/-! ## Buffers a stretch does not write

No host operation writes an argument of @main: each writes its own result. -/

section Keep

variable (W : Valuation τ sig (Elt Ideal))

/-- Closes `after hostOpsJ W b = W b` for a buffer `b` that is no operation's result: every operation writes the
    singleton of its result, a reference other than `b`. -/
local macro "host_untouched" : tactic => `(tactic| (
  refine StableHlo.after_of_forall_not_mem _ _ (List.forall_iff_forall_mem.mp ?_)
  simp only [hostOps0, hostOps1, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem keep0_arg0 : StableHlo.after (hostOps0 (F := Ideal)) W (Proc.devRef .tc main_arg0) = W (Proc.devRef .tc main_arg0) := by host_untouched
theorem keep0_arg1 : StableHlo.after (hostOps0 (F := Ideal)) W (Proc.devRef .tc main_arg1) = W (Proc.devRef .tc main_arg1) := by host_untouched
theorem keep0_arg2 : StableHlo.after (hostOps0 (F := Ideal)) W (Proc.devRef .tc main_arg2) = W (Proc.devRef .tc main_arg2) := by host_untouched
theorem keep0_arg5 : StableHlo.after (hostOps0 (F := Ideal)) W (Proc.devRef .tc main_arg5) = W (Proc.devRef .tc main_arg5) := by host_untouched
theorem keep0_arg6 : StableHlo.after (hostOps0 (F := Ideal)) W (Proc.devRef .tc main_arg6) = W (Proc.devRef .tc main_arg6) := by host_untouched
theorem keep0_arg8 : StableHlo.after (hostOps0 (F := Ideal)) W (Proc.devRef .tc main_arg8) = W (Proc.devRef .tc main_arg8) := by host_untouched
theorem keep1_arg2 : StableHlo.after (hostOps1 (F := Ideal)) W (Proc.devRef .tc main_arg2) = W (Proc.devRef .tc main_arg2) := by host_untouched

end Keep

/-! ## The fold, read back -/

variable (m : (ℓ : Loc nD τ sig) → Buf (Elt Ideal) ℓ) (ρ : Dev nD → PrngReg)

/-- At the first region's exit an argument the second stretch or the second region reads holds what was launched. -/
theorem W2_arg2 (c : Dev nD) : W2 (F := Ideal) m ρ c (Proc.devRef .tc main_arg2) = m ((c.tc : Thread nD τ).loc main_arg2) :=
  (W2_of_ne m ρ c main_arg2 (by decide)).trans (keep0_arg2 (W0 m ρ c))
theorem W2_arg5 (c : Dev nD) : W2 (F := Ideal) m ρ c (Proc.devRef .tc main_arg5) = m ((c.tc : Thread nD τ).loc main_arg5) :=
  (W2_of_ne m ρ c main_arg5 (by decide)).trans (keep0_arg5 (W0 m ρ c))
theorem W2_arg6 (c : Dev nD) : W2 (F := Ideal) m ρ c (Proc.devRef .tc main_arg6) = m ((c.tc : Thread nD τ).loc main_arg6) :=
  (W2_of_ne m ρ c main_arg6 (by decide)).trans (keep0_arg6 (W0 m ρ c))
theorem W2_arg8 (c : Dev nD) : W2 (F := Ideal) m ρ c (Proc.devRef .tc main_arg8) = m ((c.tc : Thread nD τ).loc main_arg8) :=
  (W2_of_ne m ρ c main_arg8 (by decide)).trans (keep0_arg8 (W0 m ρ c))

/-- The first region's entry: the pairs' rows, -/
theorem V1_v19 (c : Dev nD) :
    V1 (F := Ideal) m ρ c main_v19
      = Cert.ReferenceIdeal.Spec.feat (F := Ideal) (m ((c.tc : Thread nD τ).loc main_arg0)) (m ((c.tc : Thread nD τ).loc main_arg1))
          (m ((c.tc : Thread nD τ).loc main_arg2)) (m ((c.tc : Thread nD τ).loc main_arg7)) (m ((c.tc : Thread nD τ).loc main_arg8)) :=
  feat_of (W0 m ρ c)
/-- the transposed weights, -/
theorem V1_v20 (c : Dev nD) :
    V1 (F := Ideal) m ρ c main_v20 = Cert.ReferenceIdeal.Spec.wT (F := Ideal) (m ((c.tc : Thread nD τ).loc main_arg3)) :=
  wT_of (W0 m ρ c)
/-- and the bias as a row. -/
theorem V1_v21 (c : Dev nD) (q : Fin 64) :
    (V1 (F := Ideal) m ρ c main_v21 : FVec Ideal S1x64 .f32) (ix2 (0 : Fin 1) q)
      = (m ((c.tc : Thread nD τ).loc main_arg4) : FVec Ideal S64 .f32) (ix1 q) :=
  b0_of (W0 m ρ c) q

/-- At the first region's exit its result array holds the messages of all pairs. -/
theorem W2_v22 (c : Dev nD) :
    W2 (F := Ideal) m ρ c (Proc.devRef .tc main_v22)
      = Cert.ReferenceIdeal.Spec.msg (F := Ideal)
          (Cert.ReferenceIdeal.Spec.feat (F := Ideal) (m ((c.tc : Thread nD τ).loc main_arg0)) (m ((c.tc : Thread nD τ).loc main_arg1))
            (m ((c.tc : Thread nD τ).loc main_arg2)) (m ((c.tc : Thread nD τ).loc main_arg7)) (m ((c.tc : Thread nD τ).loc main_arg8)))
          (Cert.ReferenceIdeal.Spec.wT (F := Ideal) (m ((c.tc : Thread nD τ).loc main_arg3)))
          (m ((c.tc : Thread nD τ).loc main_arg4)) := by
  have h : W2 (F := Ideal) m ρ c (Proc.devRef .tc main_v22) = (dat0 (V1 m ρ) c).arrAt 3 cfg0.N := W2_arr m ρ c 3
  rw [h, Region0.arr (V1 m ρ) c (m ((c.tc : Thread nD τ).loc main_arg4)) (V1_v21 m ρ c), V1_v19, V1_v20]

/-- The second region's entry: the edges' attributes as launched, -/
theorem V3_arg2 (c : Dev nD) : V3 (F := Ideal) m ρ c main_arg2 = m ((c.tc : Thread nD τ).loc main_arg2) :=
  (keep1_arg2 (W2 m ρ c)).trans (W2_arg2 m ρ c)
/-- the transposed weights, -/
theorem V3_v28 (c : Dev nD) :
    V3 (F := Ideal) m ρ c main_v28 = Cert.ReferenceIdeal.Spec.wT1 (F := Ideal) (m ((c.tc : Thread nD τ).loc main_arg5)) :=
  (wT1_of (W2 m ρ c)).trans (congrArg (Cert.ReferenceIdeal.Spec.wT1 (F := Ideal)) (W2_arg5 m ρ c))
/-- the bias as a row, -/
theorem V3_v29 (c : Dev nD) (q : Fin 64) :
    (V3 (F := Ideal) m ρ c main_v29 : FVec Ideal S1x64 .f32) (ix2 (0 : Fin 1) q)
      = (m ((c.tc : Thread nD τ).loc main_arg6) : FVec Ideal S64 .f32) (ix1 q) :=
  (b1_of (W2 m ρ c) q).trans (congrFun (W2_arg6 m ρ c) (ix1 q))
/-- and the accumulators of the messages. -/
theorem V3_v27 (c : Dev nD) :
    V3 (F := Ideal) m ρ c main_v27
      = Cert.ReferenceIdeal.Spec.acc (F := Ideal) (m ((c.tc : Thread nD τ).loc main_arg8))
          (Cert.ReferenceIdeal.Spec.msg (F := Ideal)
            (Cert.ReferenceIdeal.Spec.feat (F := Ideal) (m ((c.tc : Thread nD τ).loc main_arg0)) (m ((c.tc : Thread nD τ).loc main_arg1))
              (m ((c.tc : Thread nD τ).loc main_arg2)) (m ((c.tc : Thread nD τ).loc main_arg7)) (m ((c.tc : Thread nD τ).loc main_arg8)))
            (Cert.ReferenceIdeal.Spec.wT (F := Ideal) (m ((c.tc : Thread nD τ).loc main_arg3)))
            (m ((c.tc : Thread nD τ).loc main_arg4))) := by
  refine (acc_of (W2 m ρ c)).trans ?_
  rw [W2_arg8, W2_v22]

/-- The contents of the result buffer at the last segment boundary are `Spec.out` of the launch arrays. -/
theorem out_eq (c : Dev nD) :
    W4 (F := Ideal) m ρ c (Proc.devRef .tc main_v30)
      = Cert.ReferenceIdeal.Spec.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h : W4 (F := Ideal) m ρ c (Proc.devRef .tc main_v30) = (dat1 (V3 m ρ) c).arrAt 4 cfg1.N := W4_arr m ρ c 4
  rw [h, Region1.arr (V3 m ρ) c (m ((c.tc : Thread nD τ).loc main_arg6)) (V3_v29 m ρ c), V3_arg2, V3_v28, V3_v27]
  rfl

end Cert.KernelIdeal.KOut

end
-- ==== Proof.lean ====
/-
  A graph layer over edge pairs: for each of 2,000,000 (edge, edge) pairs a row of 106 numbers is gathered (the
  attributes of one edge, the features of one node), a dense layer and the exponential linear unit turn it into a
  message of 64 numbers, the messages are summed into per-edge accumulators by the pair's first edge, and the result
  is `elu (edge_attr · W_eᵀ + b_e)` plus the accumulator.

  The kernel program and the plain program share every gather, concatenation, transpose and the scatter-add, word
  for word; they differ in the two dense layers. The kernel computes each on tiles of 10,000 rows: the tile's rows
  times the transposed weights on the matrix unit (operands narrowed to bf16, accumulated into zeros), plus the bias
  kept as a `[1, 64]` row, then `z` where `z > 0` and `exp z - 1` elsewhere. The plain program multiplies the whole
  arrays once, broadcasts the bias vector, and applies `z` where `z > 0` and `1 · expm1 z'` elsewhere (`z'` is `z`
  with its positive entries zeroed). Over the extended reals narrowing is the identity, both products are the same
  sum over the contracted index, `expm1 y = exp y - 1`, and the literal `1.0` is one: row by row the tiles hold the
  rows of the whole-array result, and the tiles cover every row. No step uses that the inputs are finite.

  `Spec` states the result as functions of the nine argument arrays. `RefRun` runs the plain program to it;
  `KRun` runs the kernel program and names its result buffer's final contents, which `KOut` reads back, through the
  second region (`Region1`), the host's scatter-add, the first region (`Region0`) and the host's gathers, to the same
  `Spec.out`. The kernel programs' frames are the generated ones; the plain program's is its run with the result
  dropped; the idealisation rewrote no operation, so nothing is owed for it.
-/
import proofs.«160699_j53644141527057_1_alg».proof.Defs
import proofs.«160699_j53644141527057_1_alg».proof.Proof.Gen.Kernel
import proofs.«160699_j53644141527057_1_alg».proof.Proof.Gen.Kernel.Skeleton
import proofs.«160699_j53644141527057_1_alg».proof.Proof.Gen.Kernel.Launch
import proofs.«160699_j53644141527057_1_alg».proof.Proof.Gen.Kernel.Points
import proofs.«160699_j53644141527057_1_alg».proof.Proof.Gen.Kernel.Frame
import proofs.«160699_j53644141527057_1_alg».proof.Proof.Gen.KernelIdeal
import proofs.«160699_j53644141527057_1_alg».proof.Proof.Gen.KernelIdeal.Skeleton
import proofs.«160699_j53644141527057_1_alg».proof.Proof.Gen.KernelIdeal.Launch
import proofs.«160699_j53644141527057_1_alg».proof.Proof.Gen.KernelIdeal.Points
import proofs.«160699_j53644141527057_1_alg».proof.Proof.Gen.KernelIdeal.Frame
import proofs.«160699_j53644141527057_1_alg».proof.Proof.Gen.ReferenceIdeal
import proofs.«160699_j53644141527057_1_alg».proof.Proof.Gen.Pre_finite_inputs
import proofs.«160699_j53644141527057_1_alg».proof.Proof.Spec
import proofs.«160699_j53644141527057_1_alg».proof.Proof.RefRun
import proofs.«160699_j53644141527057_1_alg».proof.Proof.KRun
import proofs.«160699_j53644141527057_1_alg».proof.Proof.KOut
import Idealize.ShloMosaic.Adequacy
import Idealize.ShloMosaic.Init

noncomputable section

namespace Cert.Proof

open Idealize.ShloMosaic Idealize.SL.Sem

/-- The kernel program as printed runs and keeps its arguments: the generated frame. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The plain program runs and keeps its arguments: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealisation rewrote nothing. -/
theorem preserves : Cert.preserves_Kernel_KernelIdeal := trivial

/-- Both programs end with `Spec.out` of their argument arrays, and the arguments agree. -/
theorem algebraic : Cert.algebraic_KernelIdeal_ReferenceIdeal := by
  intro m ρ m' ρ' _ hagree
  refine ⟨fun c => Cert.ReferenceIdeal.Spec.out (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KOut.out_eq m ρ c), (h c).2⟩)
      (Cert.KernelIdeal.KRun.run_val (F := Ideal) m ρ)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8⟩ := hagree c
    rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
